-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x784 : Shape := ⟨2, ![32768, 784]⟩
abbrev S1568x2048 : Shape := ⟨2, ![1568, 2048]⟩
abbrev S2048x1024 : Shape := ⟨2, ![2048, 1024]⟩
abbrev S1024x512 : Shape := ⟨2, ![1024, 512]⟩
abbrev S512x10 : Shape := ⟨2, ![512, 10]⟩
abbrev S2048 : Shape := ⟨1, ![2048]⟩
abbrev S1024 : Shape := ⟨1, ![1024]⟩
abbrev S512 : Shape := ⟨1, ![512]⟩
abbrev S_ : Shape := ⟨0, ![]⟩

class Facts : Prop where
  bcast_S_S32768x784 : S_.BroadcastsInDim S32768x784 (![] : Fin 0 → Fin S32768x784.rank)
  reducesTo_S32768x784_S_d0_1 : S32768x784.ReducesTo [0, 1] S_
  h_S_ : 0 < S_.numel
  bcast_S_S1568x2048 : S_.BroadcastsInDim S1568x2048 (![] : Fin 0 → Fin S1568x2048.rank)
  reducesTo_S1568x2048_S_d0_1 : S1568x2048.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S512x10 : S_.BroadcastsInDim S512x10 (![] : Fin 0 → Fin S512x10.rank)
  reducesTo_S512x10_S_d0_1 : S512x10.ReducesTo [0, 1] S_
  bcast_S_S2048 : S_.BroadcastsInDim S2048 (![] : Fin 0 → Fin S2048.rank)
  reducesTo_S2048_S_d0 : S2048.ReducesTo [0] S_
  bcast_S_S1024 : S_.BroadcastsInDim S1024 (![] : Fin 0 → Fin S1024.rank)
  reducesTo_S1024_S_d0 : S1024.ReducesTo [0] S_
  bcast_S_S512 : S_.BroadcastsInDim S512 (![] : Fin 0 → Fin S512.rank)
  reducesTo_S512_S_d0 : S512.ReducesTo [0] S_

variable [Facts]

def fn_part3 {F : FTy → Type} [FloatOps F] (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  main_v53

def fn_part2 {F : FTy → Type} [FloatOps F] (main_arg7 : FVec F S1024 .f32) (main_arg8 : FVec F S1024 .f32) (main_arg9 : FVec F S512 .f32) (main_arg10 : FVec F S512 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_v48 main_v49 main_v50

def fn_part1 {F : FTy → Type} [FloatOps F] (main_arg4 : FVec F S512x10 .f32) (main_arg5 : FVec F S2048 .f32) (main_arg6 : FVec F S2048 .f32) (main_arg7 : FVec F S1024 .f32) (main_arg8 : FVec F S1024 .f32) (main_arg9 : FVec F S512 .f32) (main_arg10 : FVec F S512 .f32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S512x10 .f32 := Host.absf main_arg4
  let main_cst_6 : FVec F S_ .f32 := constant S_ .f32 0x7F800000#32
  let main_v20 : FVec F S512x10 .f32 := broadcastInDim S512x10 ![] bcast_S_S512x10 main_cst_6
  let main_v21 : IVec S512x10 1 := cmpf .olt main_v19 main_v20
  let main_c_7 : IVec S_ 1 := constantI S_ 1 1#1
  let main_v22 : IVec S_ 1 := (fun x v => Host.reduce IntOp.andi x v reducesTo_S512x10_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S32768x784 .f32) (main_arg1 : FVec F S1568x2048 .f32) (main_arg2 : FVec F S2048x1024 .f32) (main_arg3 : FVec F S1024x512 .f32) (main_arg4 : FVec F S512x10 .f32) (main_arg5 : FVec F S2048 .f32) (main_arg6 : FVec F S2048 .f32) (main_arg7 : FVec F S1024 .f32) (main_arg8 : FVec F S1024 .f32) (main_arg9 : FVec F S512 .f32) (main_arg10 : FVec F S512 .f32) : IVec S_ 1 :=
  let main_v0 : FVec F S32768x784 .f32 := Host.absf main_arg0
  let main_cst : FVec F S_ .f32 := constant S_ .f32 0x7F800000#32
  let main_v1 : FVec F S32768x784 .f32 := broadcastInDim S32768x784 ![] bcast_S_S32768x784 main_cst
  let main_v2 : IVec S32768x784 1 := cmpf .olt main_v0 main_v1
  let main_c : IVec S_ 1 := constantI S_ 1 1#1
  let main_v3 : IVec S_ 1 := (fun x v => Host.reduce IntOp.andi x v reducesTo_S32768x784_S_d0_1 h_S_) main_v2 main_c
  let main_v4 : FVec F S1568x2048 .f32 := Host.absf main_arg1
  let main_cst_0 : FVec F S_ .f32 := constant S_ .f32 0x7F800000#32
  let main_v5 : FVec F S1568x2048 .f32 := broadcastInDim S1568x2048 ![] bcast_S_S1568x2048 main_cst_0
  let main_v6 : IVec S1568x2048 1 := cmpf .olt main_v4 main_v5
  let main_c_1 : IVec S_ 1 := constantI S_ 1 1#1
  let main_v7 : IVec S_ 1 := (fun x v => Host.reduce IntOp.andi x v reducesTo_S1568x2048_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S1024x512 .f32 := Host.absf main_arg3
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg4 main_arg5 main_arg6 main_arg7 main_arg8 main_arg9 main_arg10 main_v13 main_v16
-- ==== Kernel.lean ====
abbrev S32768x784 : Shape := ⟨2, ![32768, 784]⟩
abbrev S1568x2048 : Shape := ⟨2, ![1568, 2048]⟩
abbrev S2048x1024 : Shape := ⟨2, ![2048, 1024]⟩
abbrev S1024x512 : Shape := ⟨2, ![1024, 512]⟩
abbrev S512x10 : Shape := ⟨2, ![512, 10]⟩
abbrev S2048 : Shape := ⟨1, ![2048]⟩
abbrev S1024 : Shape := ⟨1, ![1024]⟩
abbrev S512 : Shape := ⟨1, ![512]⟩
abbrev S_ : Shape := ⟨0, ![]⟩
abbrev S784x2048 : Shape := ⟨2, ![784, 2048]⟩
abbrev S1x2048 : Shape := ⟨2, ![1, 2048]⟩
abbrev S1x1024 : Shape := ⟨2, ![1, 1024]⟩
abbrev S1x512 : Shape := ⟨2, ![1, 512]⟩
abbrev S32768x10 : Shape := ⟨2, ![32768, 10]⟩
abbrev S512x784 : Shape := ⟨2, ![512, 784]⟩
abbrev S512x2048 : Shape := ⟨2, ![512, 2048]⟩
abbrev S512x1 : Shape := ⟨2, ![512, 1]⟩
abbrev S512x1024 : Shape := ⟨2, ![512, 1024]⟩
abbrev S512x512 : Shape := ⟨2, ![512, 512]⟩

abbrev nBuf : Space → Nat
  | .hbm => 36
  | .vmem => 15
  | .smem => 0
  | _ => 0

abbrev bufTy : (tb : Table) → Fin (tcTables nBuf tb) → BufTy
  | .hbm, ⟨0, _⟩ => ⟨S32768x784, .f32⟩
  | .hbm, ⟨1, _⟩ => ⟨S1568x2048, .f32⟩
  | .hbm, ⟨2, _⟩ => ⟨S2048x1024, .f32⟩
  | .hbm, ⟨3, _⟩ => ⟨S1024x512, .f32⟩
  | .hbm, ⟨4, _⟩ => ⟨S512x10, .f32⟩
  | .hbm, ⟨5, _⟩ => ⟨S2048, .f32⟩
  | .hbm, ⟨6, _⟩ => ⟨S2048, .f32⟩
  | .hbm, ⟨7, _⟩ => ⟨S1024, .f32⟩
  | .hbm, ⟨8, _⟩ => ⟨S1024, .f32⟩
  | .hbm, ⟨9, _⟩ => ⟨S512, .f32⟩
  | .hbm, ⟨10, _⟩ => ⟨S512, .f32⟩
  | .hbm, ⟨11, _⟩ => ⟨S_, .f32⟩
  | .hbm, ⟨12, _⟩ => ⟨S1568x2048, .f32⟩
  | .hbm, ⟨13, _⟩ => ⟨S1568x2048, .i1⟩
  | .hbm, ⟨14, _⟩ => ⟨S1568x2048, .bf16⟩
  | .hbm, ⟨15, _⟩ => ⟨S784x2048, .bf16⟩
  | .hbm, ⟨16, _⟩ => ⟨S784x2048, .bf16⟩
  | .hbm, ⟨17, _⟩ => ⟨S_, .f32⟩
  | .hbm, ⟨18, _⟩ => ⟨S2048x1024, .f32⟩
  | .hbm, ⟨19, _⟩ => ⟨S2048x1024, .i1⟩
  | .hbm, ⟨20, _⟩ => ⟨S2048x1024, .bf16⟩
  | .hbm, ⟨21, _⟩ => ⟨S_, .f32⟩
  | .hbm, ⟨22, _⟩ => ⟨S1024x512, .f32⟩
  | .hbm, ⟨23, _⟩ => ⟨S1024x512, .i1⟩
  | .hbm, ⟨24, _⟩ => ⟨S1024x512, .bf16⟩
  | .hbm, ⟨25, _⟩ => ⟨S_, .f32⟩
  | .hbm, ⟨26, _⟩ => ⟨S512x10, .f32⟩
  | .hbm, ⟨27, _⟩ => ⟨S512x10, .i1⟩
  | .hbm, ⟨28, _⟩ => ⟨S512x10, .bf16⟩
  | .hbm, ⟨29, _⟩ => ⟨S1x2048, .f32⟩
  | .hbm, ⟨30, _⟩ => ⟨S1x2048, .f32⟩
  | .hbm, ⟨31, _⟩ => ⟨S1x1024, .f32⟩
  | .hbm, ⟨32, _⟩ => ⟨S1x1024, .f32⟩
  | .hbm, ⟨33, _⟩ => ⟨S1x512, .f32⟩
  | .hbm, ⟨34, _⟩ => ⟨S1x512, .f32⟩
  | .hbm, ⟨35, _⟩ => ⟨S32768x10, .f32⟩
  | .local _ .vmem, ⟨0, _⟩ => ⟨S512x784, .f32⟩
  | .local _ .vmem, ⟨1, _⟩ => ⟨S512x784, .f32⟩
  | .local _ .vmem, ⟨2, _⟩ => ⟨S784x2048, .bf16⟩
  | .local _ .vmem, ⟨3, _⟩ => ⟨S784x2048, .bf16⟩
  | .local _ .vmem, ⟨4, _⟩ => ⟨S2048x1024, .bf16⟩
  | .local _ .vmem, ⟨5, _⟩ => ⟨S1024x512, .bf16⟩
  | .local _ .vmem, ⟨6, _⟩ => ⟨S512x10, .bf16⟩
  | .local _ .vmem, ⟨7, _⟩ => ⟨S1x2048, .f32⟩
  | .local _ .vmem, ⟨8, _⟩ => ⟨S1x2048, .f32⟩
  | .local _ .vmem, ⟨9, _⟩ => ⟨S1x1024, .f32⟩
  | .local _ .vmem, ⟨10, _⟩ => ⟨S1x1024, .f32⟩
  | .local _ .vmem, ⟨11, _⟩ => ⟨S1x512, .f32⟩
  | .local _ .vmem, ⟨12, _⟩ => ⟨S1x512, .f32⟩
  | .local _ .vmem, ⟨13, _⟩ => ⟨S512x10, .f32⟩
  | .local _ .vmem, ⟨14, _⟩ => ⟨S512x10, .f32⟩
  | _, _ => ⟨S32768x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S784x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S784x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x10 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x10 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bcast_S_S1568x2048 : S_.BroadcastsInDim S1568x2048 (![] : Fin 0 → Fin S1568x2048.rank)
  slices_S1568x2048_S784x2048_0_0 : S1568x2048.Slices ![0, 0] S784x2048
  slices_S1568x2048_S784x2048_784_0 : S1568x2048.Slices ![784, 0] S784x2048
  bcast_S_S2048x1024 : S_.BroadcastsInDim S2048x1024 (![] : Fin 0 → Fin S2048x1024.rank)
  bcast_S_S1024x512 : S_.BroadcastsInDim S1024x512 (![] : Fin 0 → Fin S1024x512.rank)
  bcast_S_S512x10 : S_.BroadcastsInDim S512x10 (![] : Fin 0 → Fin S512x10.rank)
  shapeCasts_S2048_S1x2048 : S2048.ShapeCasts S1x2048
  shapeCasts_S1024_S1x1024 : S1024.ShapeCasts S1x1024
  shapeCasts_S512_S1x512 : S512.ShapeCasts S1x512
  inb_S512x784_S512x784_0_0 : ∀ a, (![0, 0] : Fin 2 → Nat) a + S512x784.size a ≤ S512x784.size a
  h_S512x784 : 0 < S512x784.numel
  bitsLt_bf16_f32 : FTy.bits .bf16 < FTy.bits .f32
  inb_S784x2048_S784x2048_0_0 : ∀ a, (![0, 0] : Fin 2 → Nat) a + S784x2048.size a ≤ S784x2048.size a
  h_S784x2048 : 0 < S784x2048.numel
  shapeCasts_S784x2048_S784x2048 : S784x2048.ShapeCasts S784x2048
  reduces_S512x2048_S512 : S512x2048.Reduces [1] S512
  shapeCasts_S512_S512x1 : S512.ShapeCasts S512x1
  broadcasts_S512x1_S512x2048 : S512x1.Broadcasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  natLt_1_32 : 1 < 32
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  reduces_S512x1024_S512 : S512x1024.Reduces [1] S512
  broadcasts_S512x1_S512x1024 : S512x1.Broadcasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S512x512_S512 : S512x512.Reduces [1] S512
  broadcasts_S512x1_S512x512 : S512x1.Broadcasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x10_S512x10_0_0 : ∀ a, (![0, 0] : Fin 2 → Nat) a + S512x10.size a ≤ S512x10.size a
  h_S512x10 : 0 < S512x10.numel
  shapeCasts_S512x10_S512x10 : S512x10.ShapeCasts S512x10
  dot_S512x784_S784x2048_S512x2048_1_0_0_1_n_n_wf : DotDims.WF S512x784 S784x2048 S512x2048 [1] [0] [0] [1] [] []
  dot_S512x2048_S2048x1024_S512x1024_1_0_0_1_n_n_wf : DotDims.WF S512x2048 S2048x1024 S512x1024 [1] [0] [0] [1] [] []
  dot_S512x1024_S1024x512_S512x512_1_0_0_1_n_n_wf : DotDims.WF S512x1024 S1024x512 S512x512 [1] [0] [0] [1] [] []
  dot_S512x512_S512x10_S512x10_1_0_0_1_n_n_wf : DotDims.WF S512x512 S512x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x784.size a ≤ S32768x784.size a
  hwx0_0 : ∀ i : grid0.Coords, EltTy.bits .f32 = 32 ∨ (Rect.block (s := S32768x784) S512x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x2048.size a ≤ S784x2048.size a
  hwx0_1 : ∀ i : grid0.Coords, EltTy.bits .bf16 = 32 ∨ (Rect.block (s := S784x2048) S784x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S784x2048.size a ≤ S784x2048.size a
  hwx0_2 : ∀ i : grid0.Coords, EltTy.bits .bf16 = 32 ∨ (Rect.block (s := S784x2048) S784x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S2048x1024.size a
  hwx0_3 : ∀ i : grid0.Coords, EltTy.bits .bf16 = 32 ∨ (Rect.block (s := S2048x1024) S2048x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S1024x512.size a
  hwx0_4 : ∀ i : grid0.Coords, EltTy.bits .bf16 = 32 ∨ (Rect.block (s := S1024x512) S1024x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x10.size a ≤ S512x10.size a
  hwx0_5 : ∀ i : grid0.Coords, EltTy.bits .bf16 = 32 ∨ (Rect.block (s := S512x10) S512x10.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x512.size a
  hwx0_10 : ∀ i : grid0.Coords, EltTy.bits .f32 = 32 ∨ (Rect.block (s := S1x512) S1x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x512.size a ≤ S1x512.size a
  hwx0_11 : ∀ i : grid0.Coords, EltTy.bits .f32 = 32 ∨ (Rect.block (s := S1x512) S1x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x10.size a ≤ S32768x10.size a
  hwx0_12 : ∀ i : grid0.Coords, EltTy.bits .f32 = 32 ∨ (Rect.block (s := S32768x10) S512x10.size (cc0_transform_12 i) (hinb0_12 i)).WholeWords (EltTy.packing .f32)

variable [Facts₀]

def dot_S512x784_S784x2048_S512x2048_1_0_0_1_n_n : DotDims S512x784 S784x2048 S512x2048 where
  lhsContracting := [1]
  rhsContracting := [0]
  lhsNonContracting := [0]
  rhsNonContracting := [1]
  lhsBatch := []
  rhsBatch := []
  wf := dot_S512x784_S784x2048_S512x2048_1_0_0_1_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x10_S512x10_1_0_0_1_n_n : DotDims S512x512 S512x10 S512x10 where
  lhsContracting := [1]
  rhsContracting := [0]
  lhsNonContracting := [0]
  rhsNonContracting := [1]
  lhsBatch := []
  rhsBatch := []
  wf := dot_S512x512_S512x10_S512x10_1_0_0_1_n_n_wf

abbrev win0_0 : Pipeline.Window sig grid0 :=
  Pipeline.Window.ofSpec (Memref.whole main_arg0) S512x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S784x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S784x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S2048x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1024x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S512x10.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v17) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v18) S1x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v19) S1x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v20) S512x10.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S32768x784 : Shape := ⟨2, ![32768, 784]⟩
abbrev S1568x2048 : Shape := ⟨2, ![1568, 2048]⟩
abbrev S2048x1024 : Shape := ⟨2, ![2048, 1024]⟩
abbrev S1024x512 : Shape := ⟨2, ![1024, 512]⟩
abbrev S512x10 : Shape := ⟨2, ![512, 10]⟩
abbrev S2048 : Shape := ⟨1, ![2048]⟩
abbrev S1024 : Shape := ⟨1, ![1024]⟩
abbrev S512 : Shape := ⟨1, ![512]⟩
abbrev S_ : Shape := ⟨0, ![]⟩
abbrev S32768x1568 : Shape := ⟨2, ![32768, 1568]⟩
abbrev S32768x2048 : Shape := ⟨2, ![32768, 2048]⟩
abbrev S32768 : Shape := ⟨1, ![32768]⟩
abbrev S32768x1 : Shape := ⟨2, ![32768, 1]⟩
abbrev S1x2048 : Shape := ⟨2, ![1, 2048]⟩
abbrev S32768x1024 : Shape := ⟨2, ![32768, 1024]⟩
abbrev S1x1024 : Shape := ⟨2, ![1, 1024]⟩
abbrev S32768x512 : Shape := ⟨2, ![32768, 512]⟩
abbrev S1x512 : Shape := ⟨2, ![1, 512]⟩
abbrev S32768x10 : Shape := ⟨2, ![32768, 10]⟩

abbrev nBuf : Space → Nat
  | .hbm => 213
  | .vmem => 0
  | .smem => 0
  | _ => 0

abbrev hbmTy0_0 (i : Nat) : BufTy := match i % 128 with
  | 0 => ⟨S32768x784, .f32⟩
  | 1 => ⟨S1568x2048, .f32⟩
  | 2 => ⟨S2048x1024, .f32⟩
  | 3 => ⟨S1024x512, .f32⟩
  | 4 => ⟨S512x10, .f32⟩
  | 5 => ⟨S2048, .f32⟩
  | 6 => ⟨S2048, .f32⟩
  | 7 => ⟨S1024, .f32⟩
  | 8 => ⟨S1024, .f32⟩
  | 9 => ⟨S512, .f32⟩
  | 10 => ⟨S512, .f32⟩
  | 11 => ⟨S_, .f32⟩
  | 12 => ⟨S32768x784, .f32⟩
  | 13 => ⟨S32768x784, .f32⟩
  | 14 => ⟨S32768x1568, .f32⟩
  | 15 => ⟨S1568x2048, .f32⟩
  | 16 => ⟨S1568x2048, .f32⟩
  | 17 => ⟨S_, .f32⟩
  | 18 => ⟨S1568x2048, .f32⟩
  | 19 => ⟨S1568x2048, .f32⟩
  | 20 => ⟨S_, .f32⟩
  | 21 => ⟨S1568x2048, .f32⟩
  | 22 => ⟨S1568x2048, .f32⟩
  | 23 => ⟨S_, .f32⟩
  | 24 => ⟨S1568x2048, .f32⟩
  | 25 => ⟨S1568x2048, .i1⟩
  | 26 => ⟨S1568x2048, .f32⟩
  | 27 => ⟨S1568x2048, .f32⟩
  | 28 => ⟨S1568x2048, .f32⟩
  | 29 => ⟨S32768x2048, .f32⟩
  | 30 => ⟨S_, .f32⟩
  | 31 => ⟨S32768, .f32⟩
  | 32 => ⟨S32768x1, .f32⟩
  | 33 => ⟨S_, .f32⟩
  | 34 => ⟨S32768x1, .f32⟩
  | 35 => ⟨S32768x1, .f32⟩
  | 36 => ⟨S32768x2048, .f32⟩
  | 37 => ⟨S32768x2048, .f32⟩
  | 38 => ⟨S32768x2048, .f32⟩
  | 39 => ⟨S_, .f32⟩
  | 40 => ⟨S32768, .f32⟩
  | 41 => ⟨S32768x1, .f32⟩
  | 42 => ⟨S_, .f32⟩
  | 43 => ⟨S32768x1, .f32⟩
  | 44 => ⟨S32768x1, .f32⟩
  | 45 => ⟨S32768x2048, .f32⟩
  | 46 => ⟨S32768x2048, .f32⟩
  | 47 => ⟨S_, .f32⟩
  | 48 => ⟨S32768x1, .f32⟩
  | 49 => ⟨S32768x1, .f32⟩
  | 50 => ⟨S32768x1, .f32⟩
  | 51 => ⟨S32768x2048, .f32⟩
  | 52 => ⟨S32768x2048, .f32⟩
  | 53 => ⟨S1x2048, .f32⟩
  | 54 => ⟨S32768x2048, .f32⟩
  | 55 => ⟨S32768x2048, .f32⟩
  | 56 => ⟨S1x2048, .f32⟩
  | 57 => ⟨S32768x2048, .f32⟩
  | 58 => ⟨S32768x2048, .f32⟩
  | 59 => ⟨S_, .f32⟩
  | 60 => ⟨S32768x2048, .f32⟩
  | 61 => ⟨S32768x2048, .f32⟩
  | 62 => ⟨S32768x2048, .f32⟩
  | 63 => ⟨S32768x2048, .f32⟩
  | 64 => ⟨S_, .f32⟩
  | 65 => ⟨S32768x2048, .f32⟩
  | 66 => ⟨S32768x2048, .f32⟩
  | 67 => ⟨S_, .f32⟩
  | 68 => ⟨S32768x2048, .f32⟩
  | 69 => ⟨S32768x2048, .f32⟩
  | 70 => ⟨S_, .f32⟩
  | 71 => ⟨S32768x2048, .f32⟩
  | 72 => ⟨S32768x2048, .i1⟩
  | 73 => ⟨S32768x2048, .f32⟩
  | 74 => ⟨S32768x2048, .f32⟩
  | 75 => ⟨S32768x2048, .f32⟩
  | 76 => ⟨S2048x1024, .f32⟩
  | 77 => ⟨S2048x1024, .f32⟩
  | 78 => ⟨S_, .f32⟩
  | 79 => ⟨S2048x1024, .f32⟩
  | 80 => ⟨S2048x1024, .f32⟩
  | 81 => ⟨S_, .f32⟩
  | 82 => ⟨S2048x1024, .f32⟩
  | 83 => ⟨S2048x1024, .f32⟩
  | 84 => ⟨S_, .f32⟩
  | 85 => ⟨S2048x1024, .f32⟩
  | 86 => ⟨S2048x1024, .i1⟩
  | 87 => ⟨S2048x1024, .f32⟩
  | 88 => ⟨S2048x1024, .f32⟩
  | 89 => ⟨S2048x1024, .f32⟩
  | 90 => ⟨S32768x1024, .f32⟩
  | 91 => ⟨S_, .f32⟩
  | 92 => ⟨S32768, .f32⟩
  | 93 => ⟨S32768x1, .f32⟩
  | 94 => ⟨S_, .f32⟩
  | 95 => ⟨S32768x1, .f32⟩
  | 96 => ⟨S32768x1, .f32⟩
  | 97 => ⟨S32768x1024, .f32⟩
  | 98 => ⟨S32768x1024, .f32⟩
  | 99 => ⟨S32768x1024, .f32⟩
  | 100 => ⟨S_, .f32⟩
  | 101 => ⟨S32768, .f32⟩
  | 102 => ⟨S32768x1, .f32⟩
  | 103 => ⟨S_, .f32⟩
  | 104 => ⟨S32768x1, .f32⟩
  | 105 => ⟨S32768x1, .f32⟩
  | 106 => ⟨S32768x1024, .f32⟩
  | 107 => ⟨S32768x1024, .f32⟩
  | 108 => ⟨S_, .f32⟩
  | 109 => ⟨S32768x1, .f32⟩
  | 110 => ⟨S32768x1, .f32⟩
  | 111 => ⟨S32768x1, .f32⟩
  | 112 => ⟨S32768x1024, .f32⟩
  | 113 => ⟨S32768x1024, .f32⟩
  | 114 => ⟨S1x1024, .f32⟩
  | 115 => ⟨S32768x1024, .f32⟩
  | 116 => ⟨S32768x1024, .f32⟩
  | 117 => ⟨S1x1024, .f32⟩
  | 118 => ⟨S32768x1024, .f32⟩
  | 119 => ⟨S32768x1024, .f32⟩
  | 120 => ⟨S_, .f32⟩
  | 121 => ⟨S32768x1024, .f32⟩
  | 122 => ⟨S32768x1024, .f32⟩
  | 123 => ⟨S32768x1024, .f32⟩
  | 124 => ⟨S32768x1024, .f32⟩
  | 125 => ⟨S_, .f32⟩
  | 126 => ⟨S32768x1024, .f32⟩
  | 127 => ⟨S32768x1024, .f32⟩
  | _ => ⟨S32768x784, .f32⟩

abbrev hbmTy0_1 (i : Nat) : BufTy := match i % 128 with
  | 0 => ⟨S_, .f32⟩
  | 1 => ⟨S32768x1024, .f32⟩
  | 2 => ⟨S32768x1024, .f32⟩
  | 3 => ⟨S_, .f32⟩
  | 4 => ⟨S32768x1024, .f32⟩
  | 5 => ⟨S32768x1024, .i1⟩
  | 6 => ⟨S32768x1024, .f32⟩
  | 7 => ⟨S32768x1024, .f32⟩
  | 8 => ⟨S32768x1024, .f32⟩
  | 9 => ⟨S1024x512, .f32⟩
  | 10 => ⟨S1024x512, .f32⟩
  | 11 => ⟨S_, .f32⟩
  | 12 => ⟨S1024x512, .f32⟩
  | 13 => ⟨S1024x512, .f32⟩
  | 14 => ⟨S_, .f32⟩
  | 15 => ⟨S1024x512, .f32⟩
  | 16 => ⟨S1024x512, .f32⟩
  | 17 => ⟨S_, .f32⟩
  | 18 => ⟨S1024x512, .f32⟩
  | 19 => ⟨S1024x512, .i1⟩
  | 20 => ⟨S1024x512, .f32⟩
  | 21 => ⟨S1024x512, .f32⟩
  | 22 => ⟨S1024x512, .f32⟩
  | 23 => ⟨S32768x512, .f32⟩
  | 24 => ⟨S_, .f32⟩
  | 25 => ⟨S32768, .f32⟩
  | 26 => ⟨S32768x1, .f32⟩
  | 27 => ⟨S_, .f32⟩
  | 28 => ⟨S32768x1, .f32⟩
  | 29 => ⟨S32768x1, .f32⟩
  | 30 => ⟨S32768x512, .f32⟩
  | 31 => ⟨S32768x512, .f32⟩
  | 32 => ⟨S32768x512, .f32⟩
  | 33 => ⟨S_, .f32⟩
  | 34 => ⟨S32768, .f32⟩
  | 35 => ⟨S32768x1, .f32⟩
  | 36 => ⟨S_, .f32⟩
  | 37 => ⟨S32768x1, .f32⟩
  | 38 => ⟨S32768x1, .f32⟩
  | 39 => ⟨S32768x512, .f32⟩
  | 40 => ⟨S32768x512, .f32⟩
  | 41 => ⟨S_, .f32⟩
  | 42 => ⟨S32768x1, .f32⟩
  | 43 => ⟨S32768x1, .f32⟩
  | 44 => ⟨S32768x1, .f32⟩
  | 45 => ⟨S32768x512, .f32⟩
  | 46 => ⟨S32768x512, .f32⟩
  | 47 => ⟨S1x512, .f32⟩
  | 48 => ⟨S32768x512, .f32⟩
  | 49 => ⟨S32768x512, .f32⟩
  | 50 => ⟨S1x512, .f32⟩
  | 51 => ⟨S32768x512, .f32⟩
  | 52 => ⟨S32768x512, .f32⟩
  | 53 => ⟨S_, .f32⟩
  | 54 => ⟨S32768x512, .f32⟩
  | 55 => ⟨S32768x512, .f32⟩
  | 56 => ⟨S32768x512, .f32⟩
  | 57 => ⟨S32768x512, .f32⟩
  | 58 => ⟨S_, .f32⟩
  | 59 => ⟨S32768x512, .f32⟩
  | 60 => ⟨S32768x512, .f32⟩
  | 61 => ⟨S_, .f32⟩
  | 62 => ⟨S32768x512, .f32⟩
  | 63 => ⟨S32768x512, .f32⟩
  | 64 => ⟨S_, .f32⟩
  | 65 => ⟨S32768x512, .f32⟩
  | 66 => ⟨S32768x512, .i1⟩
  | 67 => ⟨S32768x512, .f32⟩
  | 68 => ⟨S32768x512, .f32⟩
  | 69 => ⟨S32768x512, .f32⟩
  | 70 => ⟨S512x10, .f32⟩
  | 71 => ⟨S512x10, .f32⟩
  | 72 => ⟨S_, .f32⟩
  | 73 => ⟨S512x10, .f32⟩
  | 74 => ⟨S512x10, .f32⟩
  | 75 => ⟨S_, .f32⟩
  | 76 => ⟨S512x10, .f32⟩
  | 77 => ⟨S512x10, .f32⟩
  | 78 => ⟨S_, .f32⟩
  | 79 => ⟨S512x10, .f32⟩
  | 80 => ⟨S512x10, .i1⟩
  | 81 => ⟨S512x10, .f32⟩
  | 82 => ⟨S512x10, .f32⟩
  | 83 => ⟨S512x10, .f32⟩
  | 84 => ⟨S32768x10, .f32⟩
  | _ => ⟨S32768x784, .f32⟩

abbrev hbmTy (i : Nat) : BufTy := match i / 128 with
  | 0 => hbmTy0_0 i
  | 1 => hbmTy0_1 i
  | _ => ⟨S32768x784, .f32⟩

abbrev bufTy : (tb : Table) → Fin (tcTables nBuf tb) → BufTy
  | .hbm, ⟨i, _⟩ => hbmTy i
  | _, _ => ⟨S32768x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_cst_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_5 : Ref sig .tc := ⟨.hbm, 39, rfl⟩
abbrev main_v22 : Ref sig .tc := ⟨.hbm, 40, rfl⟩
abbrev main_v23 : Ref sig .tc := ⟨.hbm, 41, rfl⟩
abbrev main_cst_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_7 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_8 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_cst_10 : Ref sig .tc := ⟨.hbm, 67, rfl⟩
abbrev main_v45 : Ref sig .tc := ⟨.hbm, 68, rfl⟩
abbrev main_v46 : Ref sig .tc := ⟨.hbm, 69, rfl⟩
abbrev main_cst_11 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_12 : Ref sig .tc := ⟨.hbm, 78, rfl⟩
abbrev main_v54 : Ref sig .tc := ⟨.hbm, 79, rfl⟩
abbrev main_v55 : Ref sig .tc := ⟨.hbm, 80, rfl⟩
abbrev main_cst_13 : Ref sig .tc := ⟨.hbm, 81, rfl⟩
abbrev main_v56 : Ref sig .tc := ⟨.hbm, 82, rfl⟩
abbrev main_v57 : Ref sig .tc := ⟨.hbm, 83, rfl⟩
abbrev main_cst_14 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_15 : Ref sig .tc := ⟨.hbm, 91, rfl⟩
abbrev main_v64 : Ref sig .tc := ⟨.hbm, 92, rfl⟩
abbrev main_v65 : Ref sig .tc := ⟨.hbm, 93, rfl⟩
abbrev main_cst_16 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_17 : Ref sig .tc := ⟨.hbm, 100, rfl⟩
abbrev main_v71 : Ref sig .tc := ⟨.hbm, 101, rfl⟩
abbrev main_v72 : Ref sig .tc := ⟨.hbm, 102, rfl⟩
abbrev main_cst_18 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_19 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_20 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_cst_21 : Ref sig .tc := ⟨.hbm, 125, rfl⟩
abbrev main_v92 : Ref sig .tc := ⟨.hbm, 126, rfl⟩
abbrev main_v93 : Ref sig .tc := ⟨.hbm, 127, rfl⟩
abbrev main_cst_22 : Ref sig .tc := ⟨.hbm, 128, rfl⟩
abbrev main_v94 : Ref sig .tc := ⟨.hbm, 129, rfl⟩
abbrev main_v95 : Ref sig .tc := ⟨.hbm, 130, rfl⟩
abbrev main_cst_23 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_cst_24 : Ref sig .tc := ⟨.hbm, 139, rfl⟩
abbrev main_v103 : Ref sig .tc := ⟨.hbm, 140, rfl⟩
abbrev main_v104 : Ref sig .tc := ⟨.hbm, 141, rfl⟩
abbrev main_cst_25 : Ref sig .tc := ⟨.hbm, 142, rfl⟩
abbrev main_v105 : Ref sig .tc := ⟨.hbm, 143, rfl⟩
abbrev main_v106 : Ref sig .tc := ⟨.hbm, 144, rfl⟩
abbrev main_cst_26 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_cst_27 : Ref sig .tc := ⟨.hbm, 152, rfl⟩
abbrev main_v113 : Ref sig .tc := ⟨.hbm, 153, rfl⟩
abbrev main_v114 : Ref sig .tc := ⟨.hbm, 154, rfl⟩
abbrev main_cst_28 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_cst_29 : Ref sig .tc := ⟨.hbm, 161, rfl⟩
abbrev main_v120 : Ref sig .tc := ⟨.hbm, 162, rfl⟩
abbrev main_v121 : Ref sig .tc := ⟨.hbm, 163, rfl⟩
abbrev main_cst_30 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_cst_31 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_cst_32 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_cst_33 : Ref sig .tc := ⟨.hbm, 186, rfl⟩
abbrev main_v141 : Ref sig .tc := ⟨.hbm, 187, rfl⟩
abbrev main_v142 : Ref sig .tc := ⟨.hbm, 188, rfl⟩
abbrev main_cst_34 : Ref sig .tc := ⟨.hbm, 189, rfl⟩
abbrev main_v143 : Ref sig .tc := ⟨.hbm, 190, rfl⟩
abbrev main_v144 : Ref sig .tc := ⟨.hbm, 191, rfl⟩
abbrev main_cst_35 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_cst_36 : Ref sig .tc := ⟨.hbm, 200, rfl⟩
abbrev main_v152 : Ref sig .tc := ⟨.hbm, 201, rfl⟩
abbrev main_v153 : Ref sig .tc := ⟨.hbm, 202, rfl⟩
abbrev main_cst_37 : Ref sig .tc := ⟨.hbm, 203, rfl⟩
abbrev main_v154 : Ref sig .tc := ⟨.hbm, 204, rfl⟩
abbrev main_v155 : Ref sig .tc := ⟨.hbm, 205, rfl⟩
abbrev main_cst_38 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩

abbrev nD : Nat := 1
abbrev τ : Topo := Topo.v7x

variable {F : FTy → Type} [FloatOps F]

class Facts₀ : Prop where
  bcast_S_S32768x784 : S_.BroadcastsInDim S32768x784 (![] : Fin 0 → Fin S32768x784.rank)
  concatenates_S32768x784_S32768x784_S32768x1568_d1 : Shape.Concatenates [S32768x784, S32768x784] S32768x1568 1
  bcast_S_S1568x2048 : S_.BroadcastsInDim S1568x2048 (![] : Fin 0 → Fin S1568x2048.rank)
  reducesTo_S32768x2048_S32768_d1 : S32768x2048.ReducesTo [1] S32768
  h_S_ : 0 < S_.numel
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x2048_0_1 : S32768x1.BroadcastsInDim S32768x2048 (![0, 1] : Fin 2 → Fin S32768x2048.rank)
  bcast_S2048_S1x2048_1 : S2048.BroadcastsInDim S1x2048 (![1] : Fin 1 → Fin S1x2048.rank)
  bcast_S1x2048_S32768x2048_0_1 : S1x2048.BroadcastsInDim S32768x2048 (![0, 1] : Fin 2 → Fin S32768x2048.rank)
  bcast_S_S32768x2048 : S_.BroadcastsInDim S32768x2048 (![] : Fin 0 → Fin S32768x2048.rank)
  bcast_S_S2048x1024 : S_.BroadcastsInDim S2048x1024 (![] : Fin 0 → Fin S2048x1024.rank)
  reducesTo_S32768x1024_S32768_d1 : S32768x1024.ReducesTo [1] S32768
  bcast_S32768x1_S32768x1024_0_1 : S32768x1.BroadcastsInDim S32768x1024 (![0, 1] : Fin 2 → Fin S32768x1024.rank)
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  bcast_S_S32768x1024 : S_.BroadcastsInDim S32768x1024 (![] : Fin 0 → Fin S32768x1024.rank)
  bcast_S_S1024x512 : S_.BroadcastsInDim S1024x512 (![] : Fin 0 → Fin S1024x512.rank)
  reducesTo_S32768x512_S32768_d1 : S32768x512.ReducesTo [1] S32768
  bcast_S32768x1_S32768x512_0_1 : S32768x1.BroadcastsInDim S32768x512 (![0, 1] : Fin 2 → Fin S32768x512.rank)
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S_S32768x512 : S_.BroadcastsInDim S32768x512 (![] : Fin 0 → Fin S32768x512.rank)
  bcast_S_S512x10 : S_.BroadcastsInDim S512x10 (![] : Fin 0 → Fin S512x10.rank)
  dot_S32768x1568_S1568x2048_S32768x2048_1_0_0_1_n_n_wf : DotDims.WF S32768x1568 S1568x2048 S32768x2048 [1] [0] [0] [1] [] []
  dot_S32768x2048_S2048x1024_S32768x1024_1_0_0_1_n_n_wf : DotDims.WF S32768x2048 S2048x1024 S32768x1024 [1] [0] [0] [1] [] []
  dot_S32768x1024_S1024x512_S32768x512_1_0_0_1_n_n_wf : DotDims.WF S32768x1024 S1024x512 S32768x512 [1] [0] [0] [1] [] []
  dot_S32768x512_S512x10_S32768x10_1_0_0_1_n_n_wf : DotDims.WF S32768x512 S512x10 S32768x10 [1] [0] [0] [1] [] []

variable [Facts₀]

def dot_S32768x1568_S1568x2048_S32768x2048_1_0_0_1_n_n : DotDims S32768x1568 S1568x2048 S32768x2048 where
  lhsContracting := [1]
  rhsContracting := [0]
  lhsNonContracting := [0]
  rhsNonContracting := [1]
  lhsBatch := []
  rhsBatch := []
  wf := dot_S32768x1568_S1568x2048_S32768x2048_1_0_0_1_n_n_wf
def dot_S32768x2048_S2048x1024_S32768x1024_1_0_0_1_n_n : DotDims S32768x2048 S2048x1024 S32768x1024 where
  lhsContracting := [1]
  rhsContracting := [0]
  lhsNonContracting := [0]
  rhsNonContracting := [1]
  lhsBatch := []
  rhsBatch := []
  wf := dot_S32768x2048_S2048x1024_S32768x1024_1_0_0_1_n_n_wf
def dot_S32768x1024_S1024x512_S32768x512_1_0_0_1_n_n : DotDims S32768x1024 S1024x512 S32768x512 where
  lhsContracting := [1]
  rhsContracting := [0]
  lhsNonContracting := [0]
  rhsNonContracting := [1]
  lhsBatch := []
  rhsBatch := []
  wf := dot_S32768x1024_S1024x512_S32768x512_1_0_0_1_n_n_wf
def dot_S32768x512_S512x10_S32768x10_1_0_0_1_n_n : DotDims S32768x512 S512x10 S32768x10 where
  lhsContracting := [1]
  rhsContracting := [0]
  lhsNonContracting := [0]
  rhsNonContracting := [1]
  lhsBatch := []
  rhsBatch := []
  wf := dot_S32768x512_S512x10_S32768x10_1_0_0_1_n_n_wf

class Facts : Prop extends Facts₀ where

variable [Facts]
-- ==== Proof.LibRowNorm.lean ====
/-
  A row's mean and its normalisation, over the extended reals (general in the row length).

  `mean cnt h` is the row's sum divided by a count given as an extended real; `rowNorm cnt eps h s b` centres the row at
  that mean, scales it by the reciprocal root of its variance (the mean of the squared centred entries) plus an offset
  `eps`, multiplies by a per-entry scale `s` and adds a per-entry shift `b`: a layer normalisation of one row. Both are
  stated with the ideal instance's division and reciprocal root, so they say what a kernel and a host program compute
  at every extended real, the infinities included. `lift_eq` reads the lifted index of a reduction over axis 1 of an
  `[R, N]` matrix as `(p, k)`.
-/
import Idealize.ShloMosaic.PureOps.Ideal
import Idealize.ShloMosaic.PureOps.Ideal.Laws
import Idealize.ShloMosaic.Lib.ValueIdx

open scoped BigOperators

noncomputable section

namespace Cert.Lib.RowNorm

open Idealize.ShloMosaic Idealize.ShloMosaic.ValueIdx

/-- The mean of a row: its sum divided by the count `cnt`. -/
def mean {N : ℕ} (cnt : EReal) (h : Fin N → EReal) : EReal := Ideal.div (∑ k, h k) cnt

/-- The row normalised: centred at its mean, scaled by the reciprocal root of its variance plus `eps`, then by `s`,
    shifted by `b`. -/
def rowNorm {N : ℕ} (cnt eps : EReal) (h s b : Fin N → EReal) (j : Fin N) : EReal :=
  (h j - mean cnt h) * Ideal.rsqrt (Ideal.div (∑ k, (h k - mean cnt h) * (h k - mean cnt h)) cnt + eps) * s j + b j

/-- A vector array as a function of its position. -/
def vec {N : ℕ} (v : (⟨1, ![N]⟩ : Shape).Idx → EReal) (j : Fin N) : EReal := v (ix1 j)

/-- The lifted index of a reduction over axis 1 of an `[R, N]` matrix, at row `p` and position `k`, is `(p, k)`. -/
theorem lift_eq {R N : ℕ} (hr : (⟨2, ![R, N]⟩ : Shape).Reduces [1] ⟨1, ![R]⟩) (p : Fin R) (k : Fin N) :
    hr.lift (ix1 p) k = ix2 p k := by
  funext a
  refine Fin.ext ?_
  match a with
  | ⟨0, _⟩ => rfl
  | ⟨1, _⟩ => rfl

end Cert.Lib.RowNorm

end
-- ==== Proof.RowSpec.lean ====
/-
  The network's forward pass on ONE input row, over the extended reals.

  A row `x` of 784 entries goes through four dense layers whose weights are thresholded to 0 / 1 (`step`), with a row
  normalisation and the same threshold between consecutive layers. The first layer acts on the row followed by its
  complement `one - x`: its product with a 1568-row weight matrix is the sum of the row against the upper 784 weight
  rows and the complement against the lower 784 (`first`; `first_of_joined` is that splitting of the sum).

  Two more facts live here. A logistic value is a real number at every extended real, so adding to it the difference
  between a real `b` and itself gives back `b` (`logistic_add_sub`): a threshold written as a soft value plus the
  correction to the hard one IS the hard one. And a one-bit word widened to 32 bits and read signed is the bit read
  unsigned (`toInt_setWidth_one`).
-/
import Idealize.ShloMosaic.PureOps.Ideal
import Idealize.ShloMosaic.PureOps.Ideal.Laws
import Idealize.ShloMosaic.Lib.ValueIdx
import Mathlib.Algebra.BigOperators.Fin
import proofs.«172270_j10136122818966_1_alg».proof.Proof.LibRowNorm

open scoped BigOperators

noncomputable section

namespace Cert.BinaryMlp

open Idealize.ShloMosaic Idealize.ShloMosaic.ValueIdx

export Cert.Lib.RowNorm (mean rowNorm vec lift_eq)

/-! ## The pieces of one row's pass -/

/-- The hard threshold: 1 where `v > 0`, else 0. -/
def step (v : EReal) : EReal := (((Ideal.cmp .ogt v 0).toNat : ℝ) : EReal)

/-- A dense layer on one row: entry `j` is the sum over `k` of `a k * W k j`. -/
def dense {K N : ℕ} (a : Fin K → EReal) (W : Fin K → Fin N → EReal) (j : Fin N) : EReal := ∑ k, a k * W k j

/-- A weight array thresholded entry by entry, as a matrix of 0 / 1. -/
def bin {K N : ℕ} (w : (⟨2, ![K, N]⟩ : Shape).Idx → EReal) (k : Fin K) (j : Fin N) : EReal := step (w (ix2 k j))

/-- The constants, as the words both programs print: 1.0, the three row lengths, and the variance's offset. -/
def one : EReal := Ideal.ofBits .f32 0x3F800000#32
def cnt1 : EReal := Ideal.ofBits .f32 0x45000000#32
def cnt2 : EReal := Ideal.ofBits .f32 0x44800000#32
def cnt3 : EReal := Ideal.ofBits .f32 0x44000000#32
def eps : EReal := Ideal.ofBits .f32 0x358637BD#32

/-- Row `k` of the upper half of a 1568-row matrix. -/
def lo (k : Fin 784) : Fin 1568 := ⟨k.val, by have := k.isLt; omega⟩
/-- Row `k` of the lower half. -/
def hi (k : Fin 784) : Fin 1568 := ⟨784 + k.val, by have := k.isLt; omega⟩

/-- The first layer: the row against the upper weight rows plus its complement against the lower ones. -/
def first (x : Fin 784 → EReal) (w1 : (⟨2, ![1568, 2048]⟩ : Shape).Idx → EReal) (j : Fin 2048) : EReal :=
  (∑ k : Fin 784, x k * step (w1 (ix2 (lo k) j))) + ∑ k : Fin 784, (one - x k) * step (w1 (ix2 (hi k) j))

section Pass
variable (x : Fin 784 → EReal)
  (w1 : (⟨2, ![1568, 2048]⟩ : Shape).Idx → EReal) (w2 : (⟨2, ![2048, 1024]⟩ : Shape).Idx → EReal)
  (w3 : (⟨2, ![1024, 512]⟩ : Shape).Idx → EReal) (w4 : (⟨2, ![512, 10]⟩ : Shape).Idx → EReal)
  (s1 b1 : (⟨1, ![2048]⟩ : Shape).Idx → EReal) (s2 b2 : (⟨1, ![1024]⟩ : Shape).Idx → EReal)
  (s3 b3 : (⟨1, ![512]⟩ : Shape).Idx → EReal)

/-- The first hidden row, normalised. -/
def norm1 : Fin 2048 → EReal := rowNorm cnt1 eps (first x w1) (vec s1) (vec b1)
/-- Its thresholded activations. -/
def act1 : Fin 2048 → EReal := fun j => step (norm1 x w1 s1 b1 j)
/-- The second hidden row, normalised. -/
def norm2 : Fin 1024 → EReal := rowNorm cnt2 eps (dense (act1 x w1 s1 b1) (bin w2)) (vec s2) (vec b2)
def act2 : Fin 1024 → EReal := fun j => step (norm2 x w1 w2 s1 b1 s2 b2 j)
/-- The third hidden row, normalised. -/
def norm3 : Fin 512 → EReal := rowNorm cnt3 eps (dense (act2 x w1 w2 s1 b1 s2 b2) (bin w3)) (vec s3) (vec b3)
def act3 : Fin 512 → EReal := fun j => step (norm3 x w1 w2 w3 s1 b1 s2 b2 s3 b3 j)
/-- The output row: the last dense layer on the third activations. -/
def outRow : Fin 10 → EReal := dense (act3 x w1 w2 w3 s1 b1 s2 b2 s3 b3) (bin w4)
end Pass

/-- The whole result: row `i 0` of the input through the pass, at column `i 1`. -/
def G (X : (⟨2, ![32768, 784]⟩ : Shape).Idx → EReal)
    (w1 : (⟨2, ![1568, 2048]⟩ : Shape).Idx → EReal) (w2 : (⟨2, ![2048, 1024]⟩ : Shape).Idx → EReal)
    (w3 : (⟨2, ![1024, 512]⟩ : Shape).Idx → EReal) (w4 : (⟨2, ![512, 10]⟩ : Shape).Idx → EReal)
    (s1 b1 : (⟨1, ![2048]⟩ : Shape).Idx → EReal) (s2 b2 : (⟨1, ![1024]⟩ : Shape).Idx → EReal)
    (s3 b3 : (⟨1, ![512]⟩ : Shape).Idx → EReal) : (⟨2, ![32768, 10]⟩ : Shape).Idx → EReal :=
  fun i => outRow (fun k => X (ix2 (i 0) k)) w1 w2 w3 w4 s1 b1 s2 b2 s3 b3 (i 1)

/-! ## The two algebra facts -/

/-- The zero word is zero, so the printed comparison against it is `step`. -/
theorem step_eq (v : EReal) :
    (((Ideal.cmp .ogt v (Ideal.ofBits .f32 0x00000000#32)).toNat : ℝ) : EReal) = step v := by
  rw [Ideal.ofBits_zero_f32]; rfl

/-- The word 1.0 is the real number one. -/
theorem one_eq : one = ((1 : ℝ) : EReal) := by
  unfold one
  simp [Ideal.ofBits, Ideal.ieee, -EReal.coe_mul]; norm_num

/-- A logistic value is a real number, at every extended real. -/
theorem logistic_real (z : EReal) : ∃ r : ℝ, Ideal.div one (one + Ideal.exp (-z)) = (r : EReal) := by
  rw [one_eq]
  show ∃ r : ℝ, Ideal.logistic z = (r : EReal)
  induction z using EReal.rec with
  | bot => exact ⟨0, by rw [Ideal.logistic_bot]; rfl⟩
  | coe r => exact ⟨_, Ideal.logistic_coe r⟩
  | top => exact ⟨1, by rw [Ideal.logistic_top]; rfl⟩

/-- So a soft value plus the difference between a real `b` and it is `b`. -/
theorem logistic_add_sub (z : EReal) (b : ℝ) :
    Ideal.div one (one + Ideal.exp (-z)) + ((b : EReal) - Ideal.div one (one + Ideal.exp (-z))) = (b : EReal) := by
  obtain ⟨r, hr⟩ := logistic_real z
  rw [hr, ← EReal.coe_sub, ← EReal.coe_add]
  congr 1
  ring

/-- In particular a soft value corrected to the hard threshold is `step`. -/
theorem soft_to_step (z v : EReal) :
    Ideal.div one (one + Ideal.exp (-z))
      + ((((Ideal.cmp .ogt v (Ideal.ofBits .f32 0x00000000#32)).toNat : ℝ) : EReal) - Ideal.div one (one + Ideal.exp (-z)))
      = step v := by
  rw [logistic_add_sub, step_eq]

/-- One bit widened to 32 and read signed is the bit. -/
theorem toInt_setWidth_one : ∀ b : BitVec 1, (b.setWidth 32).toInt = (b.toNat : ℤ) := by decide

/-- So the widened comparison read as a signed integer is `step`. -/
theorem step_of_signed (v : EReal) :
    ((((Ideal.cmp .ogt v (Ideal.ofBits .f32 0x00000000#32)).setWidth 32).toInt : ℝ) : EReal) = step v := by
  rw [toInt_setWidth_one, ← step_eq]
  norm_cast

/-- A sum over 1568 positions is the sum over the upper 784 plus the sum over the lower 784. -/
theorem sum_halves (f : Fin 1568 → EReal) : ∑ k, f k = (∑ k : Fin 784, f (lo k)) + ∑ k : Fin 784, f (hi k) := by
  have h := Fin.sum_univ_add (a := 784) (b := 784) (f : Fin (784 + 784) → EReal)
  exact h

/-- The first layer on the joined row: if `c` is the row on the upper positions and its complement on the lower
    ones, its product with the thresholded 1568-row matrix is `first`. -/
theorem first_of_joined (x : Fin 784 → EReal) (w1 : (⟨2, ![1568, 2048]⟩ : Shape).Idx → EReal) (j : Fin 2048)
    (c : Fin 1568 → EReal) (hlo : ∀ k, c (lo k) = x k) (hhi : ∀ k, c (hi k) = one - x k) :
    ∑ k : Fin 1568, c k * step (w1 (ix2 k j)) = first x w1 j := by
  rw [sum_halves]
  unfold first
  congr 1
  · exact Finset.sum_congr rfl fun k _ => by rw [hlo]
  · exact Finset.sum_congr rfl fun k _ => by rw [hhi]

end Cert.BinaryMlp

end
-- ==== Proof.LibBroadcastInDim.lean ====
/-
  A host `broadcast_in_dim` between a vector, a one-row or one-column matrix and a matrix, read at an entry (general
  in the sizes): a vector laid along the columns of a one-row matrix or along the rows of a one-column matrix, and a
  one-row or one-column matrix spread over all rows or all columns. Each reads the operand at the coordinate that
  survives.
-/
import Idealize.ShloMosaic.Lib.Pipeline.Value
import Idealize.ShloMosaic.Lib.ValueIdx

namespace Idealize.ShloMosaic.ValueLayout

open Idealize.ShloMosaic.ValueIdx

variable {α : Type}

/-- A vector `[n]` laid as the one row of `[1, n]` reads, at `(u, i)`, the vector at `i`. -/
theorem bcast_n_1n_apply {n : ℕ} (h : (⟨1, ![n]⟩ : Shape).BroadcastsInDim ⟨2, ![1, n]⟩ (![1] : Fin 1 → Fin 2))
    (x : (⟨1, ![n]⟩ : Shape).Idx → α) (u : Fin 1) (i : Fin n) :
    broadcastInDim ⟨2, ![1, n]⟩ ![1] h x (ix2 u i) = x (ix1 i) :=
  broadcastInDim_apply _ h x _ _ (fun a => by
    match a with
    | ⟨0, _⟩ =>
      show i.val = if n = 1 then 0 else i.val
      split
      · have := i.isLt; omega
      · rfl)

/-- A vector `[n]` laid as the one column of `[n, 1]` reads, at `(i, u)`, the vector at `i`. -/
theorem bcast_n_n1_apply {n : ℕ} (h : (⟨1, ![n]⟩ : Shape).BroadcastsInDim ⟨2, ![n, 1]⟩ (![0] : Fin 1 → Fin 2))
    (x : (⟨1, ![n]⟩ : Shape).Idx → α) (i : Fin n) (u : Fin 1) :
    broadcastInDim ⟨2, ![n, 1]⟩ ![0] h x (ix2 i u) = x (ix1 i) :=
  broadcastInDim_apply _ h x _ _ (fun a => by
    match a with
    | ⟨0, _⟩ =>
      show i.val = if n = 1 then 0 else i.val
      split
      · have := i.isLt; omega
      · rfl)

/-- A one-row matrix `[1, n]` spread over `r` rows reads, at `(p, i)`, the row at `i`. -/
theorem bcast_1n_rn_apply {r n : ℕ} (h : (⟨2, ![1, n]⟩ : Shape).BroadcastsInDim ⟨2, ![r, n]⟩ (![0, 1] : Fin 2 → Fin 2))
    (x : (⟨2, ![1, n]⟩ : Shape).Idx → α) (p : Fin r) (i : Fin n) :
    broadcastInDim ⟨2, ![r, n]⟩ ![0, 1] h x (ix2 p i) = x (ix2 (0 : Fin 1) i) :=
  broadcastInDim_apply _ h x _ _ (fun a => by
    match a with
    | ⟨0, _⟩ => show (0 : ℕ) = if (1 : ℕ) = 1 then 0 else p.val; rw [if_pos rfl]
    | ⟨1, _⟩ =>
      show i.val = if n = 1 then 0 else i.val
      split
      · have := i.isLt; omega
      · rfl)

/-- A one-column matrix `[r, 1]` spread over `n` columns reads, at `(p, i)`, the column at `p`. -/
theorem bcast_r1_rn_apply {r n : ℕ} (h : (⟨2, ![r, 1]⟩ : Shape).BroadcastsInDim ⟨2, ![r, n]⟩ (![0, 1] : Fin 2 → Fin 2))
    (x : (⟨2, ![r, 1]⟩ : Shape).Idx → α) (p : Fin r) (i : Fin n) :
    broadcastInDim ⟨2, ![r, n]⟩ ![0, 1] h x (ix2 p i) = x (ix2 p (0 : Fin 1)) :=
  broadcastInDim_apply _ h x _ _ (fun a => by
    match a with
    | ⟨0, _⟩ =>
      show p.val = if r = 1 then 0 else p.val
      split
      · have := p.isLt; omega
      · rfl
    | ⟨1, _⟩ => show (0 : ℕ) = if (1 : ℕ) = 1 then 0 else i.val; rw [if_pos rfl])

end Idealize.ShloMosaic.ValueLayout
-- ==== Proof.LibRowNormHost.lean ====
/-
  A host program's row statistics and row normalisation, read at an entry (general in the number of rows `R` and the
  row length `N`; it imports LibRowNorm.lean and LibBroadcastInDim.lean).

  On the host a row sum is a reduction over axis 1 from a zero scalar; it is laid as a column `[R, 1]`, divided by a
  broadcast count, and spread back over the `N` columns. Read at `(p, j)` each of these is a function of row `p` only:
  the sum is `∑ k, H (p, k)`, the quotient is the row's `mean`, and the whole chain — centre, scale by the reciprocal
  root of the variance plus an offset, multiply by a per-column scale and add a per-column shift, both given as vectors
  laid along a row and spread down — is `rowNorm` of the row.
-/
import Idealize.ShloMosaic.Lib.IdealHost
import Idealize.ShloMosaic.Lib.Pipeline.Value
import proofs.«172270_j10136122818966_1_alg».proof.Proof.LibRowNorm
import proofs.«172270_j10136122818966_1_alg».proof.Proof.LibBroadcastInDim

open scoped BigOperators

noncomputable section

namespace Cert.Lib.RowNormHost

open Idealize.ShloMosaic Idealize.ShloMosaic.ValueIdx Idealize.ShloMosaic.ValueLayout Cert.Lib.RowNorm

variable {R N : ℕ}

/-- A host row sum from the zero scalar, at row `p`. -/
theorem rowSum_apply (H : FVec Ideal (⟨2, ![R, N]⟩ : Shape) .f32)
    (hrt : (⟨2, ![R, N]⟩ : Shape).ReducesTo [1] ⟨1, ![R]⟩) (hr : (⟨2, ![R, N]⟩ : Shape).Reduces [1] ⟨1, ![R]⟩)
    (hS : 0 < (⟨0, ![]⟩ : Shape).numel) (p : Fin R) :
    Host.reduceAdd H (constant (F := Ideal) (⟨0, ![]⟩ : Shape) .f32 0x00000000#32) hrt hS (ix1 p) = ∑ k : Fin N, H (ix2 p k) := by
  rw [hostReduceAdd_apply, Ideal.hostReduceAdd_single hrt hr, constant_apply, Ideal.ofBits_zero_f32, zero_add]
  exact Finset.sum_congr rfl fun k _ => congrArg H (lift_eq hr p k)

/-- The host's reciprocal root at an index. -/
theorem hostRsqrt_apply {s : Shape} (a : FVec Ideal s .f32) (i : s.Idx) : Host.rsqrt a i = Ideal.rsqrt (a i) := rfl

/-- A scalar constant broadcast to any shape reads its word. -/
theorem splat_apply {T : Shape} (h : (⟨0, ![]⟩ : Shape).BroadcastsInDim T ![]) (w : BitVec 32) (j : T.Idx) :
    broadcastInDim T ![] h (constant (F := Ideal) (⟨0, ![]⟩ : Shape) .f32 w) j = Ideal.ofBits .f32 w := by
  rw [broadcastInDim_scalar_apply, constant_apply]

/-- The row mean as the host prints it: the row sum as a column over the broadcast count. -/
theorem mean_apply (H : FVec Ideal (⟨2, ![R, N]⟩ : Shape) .f32) (w : BitVec 32)
    (hrt : (⟨2, ![R, N]⟩ : Shape).ReducesTo [1] ⟨1, ![R]⟩) (hr : (⟨2, ![R, N]⟩ : Shape).Reduces [1] ⟨1, ![R]⟩)
    (hS : 0 < (⟨0, ![]⟩ : Shape).numel)
    (hc : (⟨1, ![R]⟩ : Shape).BroadcastsInDim ⟨2, ![R, 1]⟩ (![0] : Fin 1 → Fin 2))
    (hs : (⟨0, ![]⟩ : Shape).BroadcastsInDim ⟨2, ![R, 1]⟩ ![]) (p : Fin R) (u : Fin 1) :
    Host.divf (broadcastInDim ⟨2, ![R, 1]⟩ ![0] hc (Host.reduceAdd H (constant (F := Ideal) (⟨0, ![]⟩ : Shape) .f32 0x00000000#32) hrt hS))
        (broadcastInDim ⟨2, ![R, 1]⟩ ![] hs (constant (F := Ideal) (⟨0, ![]⟩ : Shape) .f32 w)) (ix2 p u)
      = mean (Ideal.ofBits .f32 w) (fun k => H (ix2 p k)) := by
  rw [hostDivf_apply, bcast_n_n1_apply, rowSum_apply H hrt hr, splat_apply]
  rfl

/-- The whole normalisation chain at `(p, j)` is `rowNorm` of row `p`, given that the column `MU` holds the row means and
    `D` the centred entries. -/
theorem norm_apply (H D : FVec Ideal (⟨2, ![R, N]⟩ : Shape) .f32) (MU : FVec Ideal (⟨2, ![R, 1]⟩ : Shape) .f32)
    (s b : FVec Ideal (⟨1, ![N]⟩ : Shape) .f32) (wc we : BitVec 32)
    (hMU : ∀ (p : Fin R) (u : Fin 1), MU (ix2 p u) = mean (Ideal.ofBits .f32 wc) (fun k => H (ix2 p k)))
    (hD : ∀ (p : Fin R) (k : Fin N), D (ix2 p k) = H (ix2 p k) - mean (Ideal.ofBits .f32 wc) (fun k => H (ix2 p k)))
    (hrt : (⟨2, ![R, N]⟩ : Shape).ReducesTo [1] ⟨1, ![R]⟩) (hr : (⟨2, ![R, N]⟩ : Shape).Reduces [1] ⟨1, ![R]⟩)
    (hS : 0 < (⟨0, ![]⟩ : Shape).numel)
    (hc : (⟨1, ![R]⟩ : Shape).BroadcastsInDim ⟨2, ![R, 1]⟩ (![0] : Fin 1 → Fin 2))
    (hs : (⟨0, ![]⟩ : Shape).BroadcastsInDim ⟨2, ![R, 1]⟩ ![])
    (hcol : (⟨2, ![R, 1]⟩ : Shape).BroadcastsInDim ⟨2, ![R, N]⟩ (![0, 1] : Fin 2 → Fin 2))
    (hv : (⟨1, ![N]⟩ : Shape).BroadcastsInDim ⟨2, ![1, N]⟩ (![1] : Fin 1 → Fin 2))
    (hrow : (⟨2, ![1, N]⟩ : Shape).BroadcastsInDim ⟨2, ![R, N]⟩ (![0, 1] : Fin 2 → Fin 2))
    (p : Fin R) (j : Fin N) :
    addf (mulf (mulf (subf H (broadcastInDim ⟨2, ![R, N]⟩ ![0, 1] hcol MU))
          (broadcastInDim ⟨2, ![R, N]⟩ ![0, 1] hcol
            (Host.rsqrt (addf (Host.divf
                (broadcastInDim ⟨2, ![R, 1]⟩ ![0] hc (Host.reduceAdd (mulf D D) (constant (F := Ideal) (⟨0, ![]⟩ : Shape) .f32 0x00000000#32) hrt hS))
                (broadcastInDim ⟨2, ![R, 1]⟩ ![] hs (constant (F := Ideal) (⟨0, ![]⟩ : Shape) .f32 wc)))
              (broadcastInDim ⟨2, ![R, 1]⟩ ![] hs (constant (F := Ideal) (⟨0, ![]⟩ : Shape) .f32 we))))))
        (broadcastInDim ⟨2, ![R, N]⟩ ![0, 1] hrow (broadcastInDim ⟨2, ![1, N]⟩ ![1] hv s)))
      (broadcastInDim ⟨2, ![R, N]⟩ ![0, 1] hrow (broadcastInDim ⟨2, ![1, N]⟩ ![1] hv b)) (ix2 p j)
      = rowNorm (Ideal.ofBits .f32 wc) (Ideal.ofBits .f32 we) (fun k => H (ix2 p k)) (vec s) (vec b) j := by
  rw [addf_apply, mulf_apply, mulf_apply, subf_apply, bcast_r1_rn_apply, bcast_r1_rn_apply, bcast_1n_rn_apply,
    bcast_1n_rn_apply, bcast_n_1n_apply, bcast_n_1n_apply, hMU, hostRsqrt_apply, addf_apply, hostDivf_apply,
    bcast_n_n1_apply, rowSum_apply (mulf D D) hrt hr, splat_apply, splat_apply]
  have hsum : (∑ k : Fin N, mulf D D (ix2 p k))
      = ∑ k : Fin N, (H (ix2 p k) - mean (Ideal.ofBits .f32 wc) (fun k => H (ix2 p k)))
          * (H (ix2 p k) - mean (Ideal.ofBits .f32 wc) (fun k => H (ix2 p k))) :=
    Finset.sum_congr rfl fun k _ => by rw [mulf_apply, hD]
  rw [hsum]
  rfl

end Cert.Lib.RowNormHost

end
-- ==== Proof.NormHost.lean ====
/-
  A threshold written the soft way, read at an index.

  The reference writes every hard threshold as a logistic value plus the difference between the hard comparison and
  that logistic value. At an index this is `step` of the compared entry, whatever the logistic's argument.
-/
import Idealize.ShloMosaic.Lib.IdealHost
import Idealize.ShloMosaic.Lib.Pipeline.Value
import proofs.«172270_j10136122818966_1_alg».proof.Proof.RowSpec
import proofs.«172270_j10136122818966_1_alg».proof.Proof.LibRowNormHost

open scoped BigOperators

noncomputable section

namespace Cert.BinaryMlp.HostSide

open Idealize.ShloMosaic Idealize.ShloMosaic.ValueIdx Idealize.ShloMosaic.ValueLayout Cert.Lib.RowNormHost

/-- The host's exponential, negation and unsigned convert at an index. -/
theorem hostExp_apply {s : Shape} (a : FVec Ideal s .f32) (i : s.Idx) : Host.exp a i = Ideal.exp (a i) := rfl
theorem hostNegf_apply {s : Shape} (a : FVec Ideal s .f32) (i : s.Idx) : Host.negf a i = -(a i) := rfl
theorem uitofp_apply {s : Shape} {w : ℕ} (b : IVec s w) (i : s.Idx) :
    (uitofp .f32 b : FVec Ideal s .f32) i = (((b i).toNat : ℝ) : EReal) := rfl

/-- A threshold written the soft way, at an index: the logistic of `z` plus the difference between the hard
    comparison of `v` with zero and that logistic, is `step` of `v` there. -/
theorem softHard_apply {T : Shape} (hb : (⟨0, ![]⟩ : Shape).BroadcastsInDim T ![]) (z v : FVec Ideal T .f32) (i : T.Idx) :
    addf (Host.divf (broadcastInDim T ![] hb (constant (F := Ideal) (⟨0, ![]⟩ : Shape) .f32 0x3F800000#32))
          (addf (broadcastInDim T ![] hb (constant (F := Ideal) (⟨0, ![]⟩ : Shape) .f32 0x3F800000#32)) (Host.exp (Host.negf z))))
      (subf (uitofp .f32 (cmpf .ogt v (broadcastInDim T ![] hb (constant (F := Ideal) (⟨0, ![]⟩ : Shape) .f32 0x00000000#32))))
        (Host.divf (broadcastInDim T ![] hb (constant (F := Ideal) (⟨0, ![]⟩ : Shape) .f32 0x3F800000#32))
          (addf (broadcastInDim T ![] hb (constant (F := Ideal) (⟨0, ![]⟩ : Shape) .f32 0x3F800000#32)) (Host.exp (Host.negf z))))) i
      = step (v i) := by
  rw [addf_apply, subf_apply, hostDivf_apply, addf_apply, splat_apply hb 0x3F800000#32, hostExp_apply, hostNegf_apply,
    uitofp_apply, cmpf_apply, splat_apply hb 0x00000000#32]
  exact soft_to_step (z i) (v i)

end Cert.BinaryMlp.HostSide

end
-- ==== Proof.LibRowSpread.lean ====
/-
  A vector spread over the rows of a matrix, read at an entry (general in the sizes and the element type).

  A vector `[n]` recast as the one-row matrix `[1, n]` keeps its entries (`asRow_apply`), and the one-row matrix
  broadcast to `[m, n]` has that row in every row (`spreadRows_apply`); together, the entry `(p, q)` of the
  spread vector is the vector's entry `q` (`spread_asRow_apply`). This is what adding a per-column bias to every row
  of a matrix prints in a kernel.
-/
import Idealize.ShloMosaic.Lib.ValueIdx
import Idealize.ShloMosaic.Lib.Pipeline.Value

namespace Cert.Lib.RowSpread

open Idealize.ShloMosaic Idealize.ShloMosaic.ValueIdx

variable {m n : ℕ} {α : Type}

/-- The vector as a one-row matrix: the entry `(0, q)` is the vector's entry `q`. -/
theorem asRow_apply (v : (⟨1, ![n]⟩ : Shape).Idx → α) (h : (⟨1, ![n]⟩ : Shape).ShapeCasts (⟨2, ![1, n]⟩ : Shape))
    (z : Fin 1) (q : Fin n) : shapeCast (⟨2, ![1, n]⟩ : Shape) v h (ix2 z q) = v (ix1 q) := by
  refine shapeCast_apply v h _ _ ?_
  rw [Shape.rowMajor_val_one, Shape.rowMajor_val_two]
  obtain rfl : z = 0 := Subsingleton.elim _ _
  show q.val = 0 * n + q.val
  rw [Nat.zero_mul, Nat.zero_add]

/-- The one-row matrix broadcast down `m` rows: the entry `(p, q)` is the row's entry `q`. -/
theorem spreadRows_apply (x : (⟨2, ![1, n]⟩ : Shape).Idx → α) (h : (⟨2, ![1, n]⟩ : Shape).Broadcasts (⟨2, ![m, n]⟩ : Shape))
    (p : Fin m) (q : Fin n) : broadcastTo (⟨2, ![m, n]⟩ : Shape) x h (ix2 p q) = x (ix2 (0 : Fin 1) q) := by
  refine broadcastTo_apply x h _ _ fun a => ?_
  match a with
  | ⟨0, _⟩ => exact (if_pos rfl).symm
  | ⟨1, _⟩ =>
    show q.val = if n = 1 then 0 else q.val
    by_cases hn : n = 1
    · rw [if_pos hn]; have := q.isLt; omega
    · rw [if_neg hn]

/-- The vector spread over the rows: the entry `(p, q)` is the vector's entry `q`. -/
theorem spread_asRow_apply (v : (⟨1, ![n]⟩ : Shape).Idx → α) (h : (⟨1, ![n]⟩ : Shape).ShapeCasts (⟨2, ![1, n]⟩ : Shape))
    (hb : (⟨2, ![1, n]⟩ : Shape).Broadcasts (⟨2, ![m, n]⟩ : Shape)) (p : Fin m) (q : Fin n) :
    broadcastTo (⟨2, ![m, n]⟩ : Shape) (shapeCast (⟨2, ![1, n]⟩ : Shape) v h) hb (ix2 p q) = v (ix1 q) :=
  (spreadRows_apply _ hb p q).trans (asRow_apply v h 0 q)

end Cert.Lib.RowSpread
-- ==== Proof.KernelEntry.lean ====
/-
  The arrays the kernel's region finds, read at an entry.

  Before the region the program thresholds the four weight matrices (`w > 0` as 0 / 1), cuts the first one into its
  upper and lower 784 rows, and recasts each scale and shift vector as a one-row matrix. Read at an entry these are
  `step` of the weight there (`bin`), at row `lo k` / `hi k` for the two halves, and the vector's entry.
-/
import proofs.«172270_j10136122818966_1_alg».proof.Proof.Gen.KernelIdeal.Frame
import proofs.«172270_j10136122818966_1_alg».proof.Proof.RowSpec
import proofs.«172270_j10136122818966_1_alg».proof.Proof.NormHost
import proofs.«172270_j10136122818966_1_alg».proof.Proof.LibRowSpread
import Idealize.ShloMosaic.Lib.StableHlo.Run
import Idealize.ShloMosaic.Lib.Pipeline.Value

open scoped BigOperators

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx Idealize.ShloMosaic.ValueLayout
open Cert.BinaryMlp Cert.BinaryMlp.HostSide Cert.Lib.RowNormHost

variable (m : (ℓ : Loc nD τ sig) → Buf (Elt Ideal) ℓ)

/-- The arguments as launched, at their array types. -/
abbrev aX (c : Dev nD) : FVec Ideal S32768x784 .f32 := m ((c : Thread nD τ).loc main_arg0)
abbrev aW1 (c : Dev nD) : FVec Ideal S1568x2048 .f32 := m ((c : Thread nD τ).loc main_arg1)
abbrev aW2 (c : Dev nD) : FVec Ideal S2048x1024 .f32 := m ((c : Thread nD τ).loc main_arg2)
abbrev aW3 (c : Dev nD) : FVec Ideal S1024x512 .f32 := m ((c : Thread nD τ).loc main_arg3)
abbrev aW4 (c : Dev nD) : FVec Ideal S512x10 .f32 := m ((c : Thread nD τ).loc main_arg4)
abbrev aS1 (c : Dev nD) : FVec Ideal S2048 .f32 := m ((c : Thread nD τ).loc main_arg5)
abbrev aB1 (c : Dev nD) : FVec Ideal S2048 .f32 := m ((c : Thread nD τ).loc main_arg6)
abbrev aS2 (c : Dev nD) : FVec Ideal S1024 .f32 := m ((c : Thread nD τ).loc main_arg7)
abbrev aB2 (c : Dev nD) : FVec Ideal S1024 .f32 := m ((c : Thread nD τ).loc main_arg8)
abbrev aS3 (c : Dev nD) : FVec Ideal S512 .f32 := m ((c : Thread nD τ).loc main_arg9)
abbrev aB3 (c : Dev nD) : FVec Ideal S512 .f32 := m ((c : Thread nD τ).loc main_arg10)

/-- A hard threshold at an index: the comparison with the zero splat, converted, is `step`. -/
theorem hard_apply {T : Shape} {φ : FTy} (hb : (⟨0, ![]⟩ : Shape).BroadcastsInDim T ![]) (v : FVec Ideal T .f32) (i : T.Idx) :
    (uitofp (F := Ideal) φ (cmpf .ogt v (broadcastInDim T ![] hb (constant (F := Ideal) (⟨0, ![]⟩ : Shape) .f32 0x00000000#32)))) i
      = step (v i) := by
  show (((Ideal.cmp .ogt (v i) (broadcastInDim T ![] hb (constant (F := Ideal) (⟨0, ![]⟩ : Shape) .f32 0x00000000#32) i)).toNat : ℝ) : EReal) = _
  rw [splat_apply]
  exact step_eq (v i)

/-! ## What the host operations before the region leave -/

theorem V_v3 (c : Dev nD) : (V m c main_v3 : S784x2048.Idx → EReal)
    = extractStridedSlice S784x2048 ![0, 0] (uitofp (F := Ideal) .bf16 (cmpf .ogt (aW1 m c) (broadcastInDim S1568x2048 ![] bcast_S_S1568x2048 (constant (F := Ideal) S_ .f32 0x00000000#32)))) slices_S1568x2048_S784x2048_0_0 := by
  dsimp only [Gen.V, Gen.hostOps0]; after_results

theorem V_v4 (c : Dev nD) : (V m c main_v4 : S784x2048.Idx → EReal)
    = extractStridedSlice S784x2048 ![784, 0] (uitofp (F := Ideal) .bf16 (cmpf .ogt (aW1 m c) (broadcastInDim S1568x2048 ![] bcast_S_S1568x2048 (constant (F := Ideal) S_ .f32 0x00000000#32)))) slices_S1568x2048_S784x2048_784_0 := by
  dsimp only [Gen.V, Gen.hostOps0]; after_results

theorem V_v7 (c : Dev nD) : (V m c main_v7 : S2048x1024.Idx → EReal)
    = uitofp (F := Ideal) .bf16 (cmpf .ogt (aW2 m c) (broadcastInDim S2048x1024 ![] bcast_S_S2048x1024 (constant (F := Ideal) S_ .f32 0x00000000#32))) := by
  dsimp only [Gen.V, Gen.hostOps0]; after_results

theorem V_v10 (c : Dev nD) : (V m c main_v10 : S1024x512.Idx → EReal)
    = uitofp (F := Ideal) .bf16 (cmpf .ogt (aW3 m c) (broadcastInDim S1024x512 ![] bcast_S_S1024x512 (constant (F := Ideal) S_ .f32 0x00000000#32))) := by
  dsimp only [Gen.V, Gen.hostOps0]; after_results

theorem V_v13 (c : Dev nD) : (V m c main_v13 : S512x10.Idx → EReal)
    = uitofp (F := Ideal) .bf16 (cmpf .ogt (aW4 m c) (broadcastInDim S512x10 ![] bcast_S_S512x10 (constant (F := Ideal) S_ .f32 0x00000000#32))) := by
  dsimp only [Gen.V, Gen.hostOps0]; after_results

theorem V_v14 (c : Dev nD) : (V m c main_v14 : S1x2048.Idx → EReal) = shapeCast S1x2048 (aS1 m c) shapeCasts_S2048_S1x2048 := by
  dsimp only [Gen.V, Gen.hostOps0]; after_results; rfl
theorem V_v15 (c : Dev nD) : (V m c main_v15 : S1x2048.Idx → EReal) = shapeCast S1x2048 (aB1 m c) shapeCasts_S2048_S1x2048 := by
  dsimp only [Gen.V, Gen.hostOps0]; after_results; rfl
theorem V_v16 (c : Dev nD) : (V m c main_v16 : S1x1024.Idx → EReal) = shapeCast S1x1024 (aS2 m c) shapeCasts_S1024_S1x1024 := by
  dsimp only [Gen.V, Gen.hostOps0]; after_results; rfl
theorem V_v17 (c : Dev nD) : (V m c main_v17 : S1x1024.Idx → EReal) = shapeCast S1x1024 (aB2 m c) shapeCasts_S1024_S1x1024 := by
  dsimp only [Gen.V, Gen.hostOps0]; after_results; rfl
theorem V_v18 (c : Dev nD) : (V m c main_v18 : S1x512.Idx → EReal) = shapeCast S1x512 (aS3 m c) shapeCasts_S512_S1x512 := by
  dsimp only [Gen.V, Gen.hostOps0]; after_results; rfl
theorem V_v19 (c : Dev nD) : (V m c main_v19 : S1x512.Idx → EReal) = shapeCast S1x512 (aB3 m c) shapeCasts_S512_S1x512 := by
  dsimp only [Gen.V, Gen.hostOps0]; after_results; rfl

/-! ## Read at an entry -/

/-- The upper half of the thresholded first weight matrix. -/
theorem wUpper_apply (c : Dev nD) (k : Fin 784) (j : Fin 2048) :
    (V m c main_v3 : S784x2048.Idx → EReal) (ix2 k j) = step (aW1 m c (ix2 (lo k) j)) := by
  rw [V_v3]
  refine (extractStridedSlice_apply _ _ _ (ix2 k j) (ix2 (lo k) j) (fun a => ?_)).trans (hard_apply _ _ _)
  match a with
  | ⟨0, _⟩ => exact (Nat.zero_add _).symm
  | ⟨1, _⟩ => exact (Nat.zero_add _).symm

/-- The lower half. -/
theorem wLower_apply (c : Dev nD) (k : Fin 784) (j : Fin 2048) :
    (V m c main_v4 : S784x2048.Idx → EReal) (ix2 k j) = step (aW1 m c (ix2 (hi k) j)) := by
  rw [V_v4]
  refine (extractStridedSlice_apply _ _ _ (ix2 k j) (ix2 (hi k) j) (fun a => ?_)).trans (hard_apply _ _ _)
  match a with
  | ⟨0, _⟩ => rfl
  | ⟨1, _⟩ => exact (Nat.zero_add _).symm

theorem w2_apply (c : Dev nD) (k : Fin 2048) (j : Fin 1024) :
    (V m c main_v7 : S2048x1024.Idx → EReal) (ix2 k j) = bin (aW2 m c) k j := by
  rw [V_v7]; exact hard_apply _ _ _
theorem w3_apply (c : Dev nD) (k : Fin 1024) (j : Fin 512) :
    (V m c main_v10 : S1024x512.Idx → EReal) (ix2 k j) = bin (aW3 m c) k j := by
  rw [V_v10]; exact hard_apply _ _ _
theorem w4_apply (c : Dev nD) (k : Fin 512) (j : Fin 10) :
    (V m c main_v13 : S512x10.Idx → EReal) (ix2 k j) = bin (aW4 m c) k j := by
  rw [V_v13]; exact hard_apply _ _ _

theorem s1_apply (c : Dev nD) (j : Fin 2048) : (V m c main_v14 : S1x2048.Idx → EReal) (ix2 (0 : Fin 1) j) = vec (aS1 m c) j := by
  rw [V_v14]; exact Cert.Lib.RowSpread.asRow_apply _ _ 0 j
theorem b1_apply (c : Dev nD) (j : Fin 2048) : (V m c main_v15 : S1x2048.Idx → EReal) (ix2 (0 : Fin 1) j) = vec (aB1 m c) j := by
  rw [V_v15]; exact Cert.Lib.RowSpread.asRow_apply _ _ 0 j
theorem s2_apply (c : Dev nD) (j : Fin 1024) : (V m c main_v16 : S1x1024.Idx → EReal) (ix2 (0 : Fin 1) j) = vec (aS2 m c) j := by
  rw [V_v16]; exact Cert.Lib.RowSpread.asRow_apply _ _ 0 j
theorem b2_apply (c : Dev nD) (j : Fin 1024) : (V m c main_v17 : S1x1024.Idx → EReal) (ix2 (0 : Fin 1) j) = vec (aB2 m c) j := by
  rw [V_v17]; exact Cert.Lib.RowSpread.asRow_apply _ _ 0 j
theorem s3_apply (c : Dev nD) (j : Fin 512) : (V m c main_v18 : S1x512.Idx → EReal) (ix2 (0 : Fin 1) j) = vec (aS3 m c) j := by
  rw [V_v18]; exact Cert.Lib.RowSpread.asRow_apply _ _ 0 j
theorem b3_apply (c : Dev nD) (j : Fin 512) : (V m c main_v19 : S1x512.Idx → EReal) (ix2 (0 : Fin 1) j) = vec (aB3 m c) j := by
  rw [V_v19]; exact Cert.Lib.RowSpread.asRow_apply _ _ 0 j

end Cert.KernelIdeal.Entry

end
-- ==== Proof.LibColumn.lean ====
/-
  Column forms of two layout operations, read at an index (general in the sizes).

  A vector of `a` entries cast to an `[a, 1]` column and back, and a column broadcast along a new minor
  axis of extent `b`: what a sum with its reduced axis kept, or a per-row value spread over the lanes,
  prints. Each reads the operand at the row's index.
-/
import Idealize.ShloMosaic.Lib.Pipeline.Value
import Idealize.ShloMosaic.Lib.ValueIdx

namespace Idealize.ShloMosaic.ValueLayout

open Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(i, l)`, the operand at `(i, 0)`, for `1 < a`. -/
theorem broadcastTo_a1_ab_apply {a b : ℕ} (ha : a ≠ 1) (v : (⟨2, ![a, 1]⟩ : Shape).Idx → α)
    (h : (⟨2, ![a, 1]⟩ : Shape).Broadcasts ⟨2, ![a, b]⟩) (i : Fin a) (l : Fin b) :
    broadcastTo ⟨2, ![a, b]⟩ v h (ix2 i l) = v (ix2 i (0 : Fin 1)) :=
  broadcastTo_apply v h _ _ (fun d => by
    match d with
    | ⟨0, _⟩ => show i.val = if a = 1 then 0 else i.val; rw [if_neg ha]
    | ⟨1, _⟩ => show (0 : ℕ) = if (1 : ℕ) = 1 then 0 else l.val; rw [if_pos rfl])

end Idealize.ShloMosaic.ValueLayout
-- ==== Proof.LibRowNormKernel.lean ====
/-
  A kernel's row statistics and row normalisation, read at an entry (general in the number of rows `R` and the row
  length `N`; it imports LibRowNorm.lean, LibColumn.lean and LibRowSpread.lean).

  In the kernel a row sum is a lane reduction over axis 1 with the neutral accumulator; it is recast as a column
  `[R, 1]`, divided by a splat of the count, and broadcast back over the `N` lanes. The per-column scale and shift
  arrive as one-row blocks `[1, N]` broadcast down the rows. Read at `(p, j)` the chain is `rowNorm` of row `p`.
-/
import Idealize.ShloMosaic.Lib.Pipeline.Value
import Idealize.ShloMosaic.PureOps.Ideal.Laws
import proofs.«172270_j10136122818966_1_alg».proof.Proof.LibRowNorm
import proofs.«172270_j10136122818966_1_alg».proof.Proof.LibColumn
import proofs.«172270_j10136122818966_1_alg».proof.Proof.LibRowSpread

open scoped BigOperators

noncomputable section

namespace Cert.Lib.RowNormKernel

open Idealize.ShloMosaic Idealize.ShloMosaic.ValueIdx Idealize.ShloMosaic.ValueLayout Cert.Lib.RowNorm

variable {R N : ℕ}

/-- The kernel's reciprocal root at an index. -/
theorem rsqrt_apply {s : Shape} (a : FVec Ideal s .f32) (i : s.Idx) : rsqrt a i = Ideal.rsqrt (a i) := rfl

/-- A lane sum with the neutral accumulator, at row `p`. -/
theorem laneSum_apply (h : FVec Ideal (⟨2, ![R, N]⟩ : Shape) .f32) (acc : BitVec 32)
    (hr : (⟨2, ![R, N]⟩ : Shape).Reduces [1] ⟨1, ![R]⟩) (hφ : FKind.Formats .f32) (hacc : acc = FKind.add.neutral .f32 hφ)
    (p : Fin R) :
    multiReduction .add [1] (⟨1, ![R]⟩ : Shape) h acc hr hφ hacc (ix1 p) = ∑ k : Fin N, h (ix2 p k) := by
  rw [Ideal.multiReduction_add_single]
  exact Finset.sum_congr rfl fun k _ => congrArg h (lift_eq hr p k)

/-- The row mean as the kernel prints it. -/
theorem mean_apply (h : FVec Ideal (⟨2, ![R, N]⟩ : Shape) .f32) (acc w : BitVec 32)
    (hr : (⟨2, ![R, N]⟩ : Shape).Reduces [1] ⟨1, ![R]⟩) (hφ : FKind.Formats .f32) (hacc : acc = FKind.add.neutral .f32 hφ)
    (hsc : (⟨1, ![R]⟩ : Shape).ShapeCasts ⟨2, ![R, 1]⟩) (p : Fin R) (u : Fin 1) :
    divf (shapeCast (⟨2, ![R, 1]⟩ : Shape) (multiReduction .add [1] (⟨1, ![R]⟩ : Shape) h acc hr hφ hacc) hsc)
        (broadcast (⟨2, ![R, 1]⟩ : Shape) (Scalar.ofBits (F := Ideal) .f32 w)) (ix2 p u)
      = mean (Ideal.ofBits .f32 w) (fun k => h (ix2 p k)) := by
  rw [divf_apply, shapeCast_a_a1_apply, laneSum_apply, broadcast_apply]
  rfl

/-- The whole normalisation chain at `(p, j)` is `rowNorm` of row `p`, given that the column `MU` holds the row means and
    `D` the centred entries; the scale and shift are the one-row blocks' entries. -/
theorem norm_apply (h D : FVec Ideal (⟨2, ![R, N]⟩ : Shape) .f32) (MU : FVec Ideal (⟨2, ![R, 1]⟩ : Shape) .f32)
    (sv bv : FVec Ideal (⟨2, ![1, N]⟩ : Shape) .f32) (acc wc we : BitVec 32) (hR : R ≠ 1)
    (hMU : ∀ (p : Fin R) (u : Fin 1), MU (ix2 p u) = mean (Ideal.ofBits .f32 wc) (fun k => h (ix2 p k)))
    (hD : ∀ (p : Fin R) (k : Fin N), D (ix2 p k) = h (ix2 p k) - mean (Ideal.ofBits .f32 wc) (fun k => h (ix2 p k)))
    (hr : (⟨2, ![R, N]⟩ : Shape).Reduces [1] ⟨1, ![R]⟩) (hφ : FKind.Formats .f32) (hacc : acc = FKind.add.neutral .f32 hφ)
    (hsc : (⟨1, ![R]⟩ : Shape).ShapeCasts ⟨2, ![R, 1]⟩)
    (hcol : (⟨2, ![R, 1]⟩ : Shape).Broadcasts ⟨2, ![R, N]⟩)
    (hself : (⟨2, ![1, N]⟩ : Shape).ShapeCasts ⟨2, ![1, N]⟩)
    (hrow : (⟨2, ![1, N]⟩ : Shape).Broadcasts ⟨2, ![R, N]⟩)
    (p : Fin R) (j : Fin N) :
    addf (mulf (mulf (subf h (broadcastTo (⟨2, ![R, N]⟩ : Shape) MU hcol))
          (broadcastTo (⟨2, ![R, N]⟩ : Shape)
            (rsqrt (addf (divf
                (shapeCast (⟨2, ![R, 1]⟩ : Shape) (multiReduction .add [1] (⟨1, ![R]⟩ : Shape) (mulf D D) acc hr hφ hacc) hsc)
                (broadcast (⟨2, ![R, 1]⟩ : Shape) (Scalar.ofBits (F := Ideal) .f32 wc)))
              (broadcast (⟨2, ![R, 1]⟩ : Shape) (Scalar.ofBits (F := Ideal) .f32 we)))) hcol))
        (broadcastTo (⟨2, ![R, N]⟩ : Shape) (shapeCast (⟨2, ![1, N]⟩ : Shape) sv hself) hrow))
      (broadcastTo (⟨2, ![R, N]⟩ : Shape) (shapeCast (⟨2, ![1, N]⟩ : Shape) bv hself) hrow) (ix2 p j)
      = rowNorm (Ideal.ofBits .f32 wc) (Ideal.ofBits .f32 we) (fun k => h (ix2 p k))
          (fun j => sv (ix2 (0 : Fin 1) j)) (fun j => bv (ix2 (0 : Fin 1) j)) j := by
  rw [shapeCast_self, shapeCast_self, addf_apply, mulf_apply, mulf_apply, subf_apply,
    broadcastTo_a1_ab_apply hR, broadcastTo_a1_ab_apply hR, Cert.Lib.RowSpread.spreadRows_apply,
    Cert.Lib.RowSpread.spreadRows_apply, hMU]
  have hroot : rsqrt (addf (divf
        (shapeCast (⟨2, ![R, 1]⟩ : Shape) (multiReduction .add [1] (⟨1, ![R]⟩ : Shape) (mulf D D) acc hr hφ hacc) hsc)
        (broadcast (⟨2, ![R, 1]⟩ : Shape) (Scalar.ofBits (F := Ideal) .f32 wc)))
      (broadcast (⟨2, ![R, 1]⟩ : Shape) (Scalar.ofBits (F := Ideal) .f32 we))) (ix2 p (0 : Fin 1))
      = Ideal.rsqrt (Ideal.div (∑ k : Fin N, (h (ix2 p k) - mean (Ideal.ofBits .f32 wc) (fun k => h (ix2 p k)))
          * (h (ix2 p k) - mean (Ideal.ofBits .f32 wc) (fun k => h (ix2 p k)))) (Ideal.ofBits .f32 wc) + Ideal.ofBits .f32 we) := by
    rw [rsqrt_apply, addf_apply, divf_apply, shapeCast_a_a1_apply, laneSum_apply, broadcast_apply, broadcast_apply]
    have hsum : (∑ k : Fin N, mulf D D (ix2 p k))
        = ∑ k : Fin N, (h (ix2 p k) - mean (Ideal.ofBits .f32 wc) (fun k => h (ix2 p k)))
            * (h (ix2 p k) - mean (Ideal.ofBits .f32 wc) (fun k => h (ix2 p k))) :=
      Finset.sum_congr rfl fun k _ => by rw [mulf_apply, hD]
    rw [hsum]
    rfl
  rw [hroot]
  rfl

/-- The kernel's normalisation of a product `h`, as ONE function of `h`, the scale and shift one-row blocks, the three
    words (accumulator, count, offset) and the shape witnesses: the row means as a column, the centred product, its
    squares' row sums, the reciprocal root, the scale and the shift. -/
def chain (h : FVec Ideal (⟨2, ![R, N]⟩ : Shape) .f32) (sv bv : FVec Ideal (⟨2, ![1, N]⟩ : Shape) .f32) (acc wc we : BitVec 32)
    (hr : (⟨2, ![R, N]⟩ : Shape).Reduces [1] ⟨1, ![R]⟩) (hφ : FKind.Formats .f32) (hacc : acc = FKind.add.neutral .f32 hφ)
    (hsc : (⟨1, ![R]⟩ : Shape).ShapeCasts ⟨2, ![R, 1]⟩) (hcol : (⟨2, ![R, 1]⟩ : Shape).Broadcasts ⟨2, ![R, N]⟩)
    (hself : (⟨2, ![1, N]⟩ : Shape).ShapeCasts ⟨2, ![1, N]⟩) (hrow : (⟨2, ![1, N]⟩ : Shape).Broadcasts ⟨2, ![R, N]⟩) :
    FVec Ideal (⟨2, ![R, N]⟩ : Shape) .f32 :=
  addf (mulf (mulf
      (subf h (broadcastTo (⟨2, ![R, N]⟩ : Shape)
        (divf (shapeCast (⟨2, ![R, 1]⟩ : Shape) (multiReduction .add [1] (⟨1, ![R]⟩ : Shape) h acc hr hφ hacc) hsc)
          (broadcast (⟨2, ![R, 1]⟩ : Shape) (Scalar.ofBits (F := Ideal) .f32 wc))) hcol))
      (broadcastTo (⟨2, ![R, N]⟩ : Shape)
        (rsqrt (addf (divf
            (shapeCast (⟨2, ![R, 1]⟩ : Shape) (multiReduction .add [1] (⟨1, ![R]⟩ : Shape)
              (mulf
                (subf h (broadcastTo (⟨2, ![R, N]⟩ : Shape)
                  (divf (shapeCast (⟨2, ![R, 1]⟩ : Shape) (multiReduction .add [1] (⟨1, ![R]⟩ : Shape) h acc hr hφ hacc) hsc)
                    (broadcast (⟨2, ![R, 1]⟩ : Shape) (Scalar.ofBits (F := Ideal) .f32 wc))) hcol))
                (subf h (broadcastTo (⟨2, ![R, N]⟩ : Shape)
                  (divf (shapeCast (⟨2, ![R, 1]⟩ : Shape) (multiReduction .add [1] (⟨1, ![R]⟩ : Shape) h acc hr hφ hacc) hsc)
                    (broadcast (⟨2, ![R, 1]⟩ : Shape) (Scalar.ofBits (F := Ideal) .f32 wc))) hcol)))
              acc hr hφ hacc) hsc)
            (broadcast (⟨2, ![R, 1]⟩ : Shape) (Scalar.ofBits (F := Ideal) .f32 wc)))
          (broadcast (⟨2, ![R, 1]⟩ : Shape) (Scalar.ofBits (F := Ideal) .f32 we)))) hcol))
      (broadcastTo (⟨2, ![R, N]⟩ : Shape) (shapeCast (⟨2, ![1, N]⟩ : Shape) sv hself) hrow))
    (broadcastTo (⟨2, ![R, N]⟩ : Shape) (shapeCast (⟨2, ![1, N]⟩ : Shape) bv hself) hrow)

/-- The chain at `(p, j)` is `rowNorm` of row `p` of the product. -/
theorem chain_apply (h : FVec Ideal (⟨2, ![R, N]⟩ : Shape) .f32) (sv bv : FVec Ideal (⟨2, ![1, N]⟩ : Shape) .f32)
    (acc wc we : BitVec 32) (hR : R ≠ 1)
    (hr : (⟨2, ![R, N]⟩ : Shape).Reduces [1] ⟨1, ![R]⟩) (hφ : FKind.Formats .f32) (hacc : acc = FKind.add.neutral .f32 hφ)
    (hsc : (⟨1, ![R]⟩ : Shape).ShapeCasts ⟨2, ![R, 1]⟩) (hcol : (⟨2, ![R, 1]⟩ : Shape).Broadcasts ⟨2, ![R, N]⟩)
    (hself : (⟨2, ![1, N]⟩ : Shape).ShapeCasts ⟨2, ![1, N]⟩) (hrow : (⟨2, ![1, N]⟩ : Shape).Broadcasts ⟨2, ![R, N]⟩)
    (p : Fin R) (j : Fin N) :
    chain h sv bv acc wc we hr hφ hacc hsc hcol hself hrow (ix2 p j)
      = rowNorm (Ideal.ofBits .f32 wc) (Ideal.ofBits .f32 we) (fun k => h (ix2 p k))
          (fun j => sv (ix2 (0 : Fin 1) j)) (fun j => bv (ix2 (0 : Fin 1) j)) j := by
  unfold chain
  refine norm_apply h _ _ sv bv acc wc we hR (fun q u => ?_) (fun q k => ?_) hr hφ hacc hsc hcol hself hrow p j
  · exact mean_apply h acc wc hr hφ hacc hsc q u
  · rw [subf_apply, broadcastTo_a1_ab_apply hR, mean_apply]

end Cert.Lib.RowNormKernel

end
-- ==== Proof.LibPlainDot.lean ====
/-
  A matrix product with the plain dimension numbers, read at an entry (general in the sizes).

  For a left operand `[R, K]`, a right operand `[K, N]` and a result `[R, N]`, when the left operand contracts
  its second axis, the right one its first, neither has a batch axis, and the result's axes are the left
  operand's rows then the right operand's columns, the sum over the contraction index at the entry `(p, q)` is
  the sum over `k : Fin K` of `l (p, k) * r (k, q)`. Stated once for any such record of dimension numbers, it
  reads a kernel's matrix product into a zero accumulator and a host's general dot product the same way.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {R K N : ℕ}

/-- The dimension numbers of `[R, K] · [K, N] → [R, N]`: one contracted axis each (the left operand's columns, the
    right operand's rows), no batch axes, rows before columns in the result. -/
structure IsPlain (d : DotDims (⟨2, ![R, K]⟩ : Shape) (⟨2, ![K, N]⟩ : Shape) (⟨2, ![R, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![R, K]⟩ : Shape) (⟨2, ![K, N]⟩ : Shape) (⟨2, ![R, N]⟩ : Shape)}

private theorem coord_congr {s : Shape} (j : s.Idx) (a b : ℕ) (ha : a < s.rank) (hb : b < s.rank) (h : a = b) :
    (j ⟨a, ha⟩).val = (j ⟨b, hb⟩).val := by subst h; rfl

/-- The left operand's row is the result's row. -/
theorem lhs_row (h : IsPlain d) (j : (⟨2, ![R, N]⟩ : Shape).Idx) (k : d.contr.Idx) :
    (d.lhsIdx j k (0 : Fin 2)).val = (j (0 : Fin 2)).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact coord_congr j _ _ _ _ (by simp [h.lb, h.ln])

/-- The left operand's column is the contraction coordinate. -/
theorem lhs_col (h : IsPlain d) (j : (⟨2, ![R, N]⟩ : Shape).Idx) (k : d.contr.Idx) :
    (d.lhsIdx j k (1 : Fin 2)).val = (k ⟨0, by rw [d.rank_contr, h.lc]; exact Nat.one_pos⟩).val :=
  d.lhsIdx_val_of_single h.lc j k

/-- The right operand's row is the contraction coordinate. -/
theorem rhs_row (h : IsPlain d) (j : (⟨2, ![R, N]⟩ : Shape).Idx) (k : d.contr.Idx) :
    (d.rhsIdx j k (0 : Fin 2)).val = (k ⟨0, by rw [d.rank_contr, ← d.length_contracting, h.rc]; exact Nat.one_pos⟩).val :=
  d.rhsIdx_val_of_single h.rc j k

/-- The right operand's column is the result's column. -/
theorem rhs_col (h : IsPlain d) (j : (⟨2, ![R, N]⟩ : Shape).Idx) (k : d.contr.Idx) :
    (d.rhsIdx j k (1 : Fin 2)).val = (j (1 : Fin 2)).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact coord_congr j _ _ _ _ (by simp [h.lb, h.ln, h.rn])

theorem contr_rank (h : IsPlain d) : d.contr.rank = 1 := by rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The contraction sum at the entry `(p, q)`, over the one contracted coordinate. -/
theorem sum_contr (h : IsPlain d) (l : (⟨2, ![R, K]⟩ : Shape).Idx → EReal) (r : (⟨2, ![K, N]⟩ : Shape).Idx → EReal)
    (p : Fin R) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank h) (contr_size h)).symm]
  refine Finset.sum_congr rfl fun k _ => ?_
  have hl : d.lhsIdx (ix2 p q) ((contrEquiv1 d K (contr_rank h) (contr_size h)).symm k) = ix2 p k := by
    funext a
    refine Fin.ext ?_
    match a with
    | ⟨0, _⟩ => exact lhs_row h _ _
    | ⟨1, _⟩ => exact (lhs_col h _ _).trans (contrEquiv1_symm_val d K (contr_rank h) (contr_size h) k)
  have hr : d.rhsIdx (ix2 p q) ((contrEquiv1 d K (contr_rank h) (contr_size h)).symm k) = ix2 k q := by
    funext a
    refine Fin.ext ?_
    match a with
    | ⟨0, _⟩ => exact (rhs_row h _ _).trans (contrEquiv1_symm_val d K (contr_rank h) (contr_size h) k)
    | ⟨1, _⟩ => exact rhs_col h _ _
  rw [hl, hr]

/-- A kernel's matrix product into the zero accumulator, at the ideal values, read at `(p, q)`. -/
theorem matmul_zero_apply (h : IsPlain d) (prec : Option ContractPrecision)
    (l : FVec Ideal (⟨2, ![R, K]⟩ : Shape) .f32) (r : FVec Ideal (⟨2, ![K, N]⟩ : Shape) .f32) (p : Fin R) (q : Fin N) :
    FloatOps.matmul d prec l r (constant (⟨2, ![R, N]⟩ : Shape) .f32 0x00000000#32) (ix2 p q)
      = ∑ k : Fin K, l (ix2 p k) * r (ix2 k q) :=
  (Ideal.matmul_constant_zero_apply d prec l r (ix2 p q)).trans (sum_contr h l r p q)

/-- A host's general dot product, at the ideal values, read at `(p, q)`. -/
theorem dotGeneral_apply (h : IsPlain d) (prec : Option ContractPrecision) (sched : HostSchedule)
    (l : FVec Ideal (⟨2, ![R, K]⟩ : Shape) .f32) (r : FVec Ideal (⟨2, ![K, N]⟩ : Shape) .f32) (p : Fin R) (q : Fin N) :
    FloatOps.dotGeneral d prec sched l r (ix2 p q) = ∑ k : Fin K, l (ix2 p k) * r (ix2 k q) :=
  (Ideal.dotGeneral_apply d prec sched l r (ix2 p q)).trans (sum_contr h l r p q)

end Idealize.ShloMosaic.PlainDot
-- ==== Proof.KernelBody.lean ====
/-
  The kernel body's values at an entry.

  On one block of 512 rows the body computes the whole pass. Its arithmetic is four pure terms of the loaded blocks:
  the first layer's comparison mask; the second layer through the third product; that product's row sums; and the third
  layer's normalisation, threshold and the last product. Each is restated here over the named normalisation chain, and
  read at `(p, j)` given what the loaded blocks hold: row `p` of the input block is a row `xr p`, the weight blocks are
  the thresholded matrices, the one-row blocks are the scale and shift vectors. Every stage is then the row pass's
  stage of `xr p`. A comparison widened to a word and read signed is `step`; a change of float format is the identity.
-/
import proofs.«172270_j10136122818966_1_alg».proof.Proof.Gen.KernelIdeal.Skeleton
import proofs.«172270_j10136122818966_1_alg».proof.Proof.RowSpec
import proofs.«172270_j10136122818966_1_alg».proof.Proof.LibRowNormKernel
import proofs.«172270_j10136122818966_1_alg».proof.Proof.LibPlainDot

open scoped BigOperators

noncomputable section

namespace Cert.KernelIdeal.Body

open Cert.KernelIdeal Cert.KernelIdeal.Gen Idealize.ShloMosaic Idealize.ShloMosaic.ValueIdx Idealize.ShloMosaic.ValueLayout
open Cert.BinaryMlp Cert.Lib.RowNormKernel Idealize.ShloMosaic.PlainDot

/-! ## The products -/

theorem plainA : IsPlain dot_S512x784_S784x2048_S512x2048_1_0_0_1_n_n := ⟨rfl, rfl, rfl, rfl, rfl, rfl⟩
theorem plainB : IsPlain dot_S512x2048_S2048x1024_S512x1024_1_0_0_1_n_n := ⟨rfl, rfl, rfl, rfl, rfl, rfl⟩
theorem plainC : IsPlain dot_S512x1024_S1024x512_S512x512_1_0_0_1_n_n := ⟨rfl, rfl, rfl, rfl, rfl, rfl⟩
theorem plainD : IsPlain dot_S512x512_S512x10_S512x10_1_0_0_1_n_n := ⟨rfl, rfl, rfl, rfl, rfl, rfl⟩

/-- A matrix product into the zero accumulator, the operands of any float formats, at `(p, q)`. -/
theorem mm_apply {R K N : ℕ} {φ₁ φ₂ : FTy} {d : DotDims (⟨2, ![R, K]⟩ : Shape) (⟨2, ![K, N]⟩ : Shape) (⟨2, ![R, N]⟩ : Shape)}
    (h : IsPlain d) (prec : Option ContractPrecision) (l : FVec Ideal (⟨2, ![R, K]⟩ : Shape) φ₁)
    (r : FVec Ideal (⟨2, ![K, N]⟩ : Shape) φ₂) (p : Fin R) (q : Fin N) :
    matmul d prec l r (constant (F := Ideal) (⟨2, ![R, N]⟩ : Shape) .f32 0x00000000#32) (ix2 p q)
      = ∑ k : Fin K, l (ix2 p k) * r (ix2 k q) :=
  (Ideal.matmul_constant_zero_apply d prec l r (ix2 p q)).trans (sum_contr h l r p q)

/-- A mask widened to words, converted signed and narrowed, at an index: the widened bit read signed. -/
theorem maskVal_apply {s : Shape} (v : IVec s 1) (i : s.Idx) :
    (truncf .bf16 (sitofp (F := Ideal) .f32 (extui 32 v natLt_1_32)) bitsLt_bf16_f32) i
      = ((((v i).setWidth 32).toInt : ℝ) : EReal) := rfl

/-! ## The first layer on a block -/

section Layer1
variable (x0 : FVec Ideal S512x784 .f32) (wa wb : FVec Ideal S784x2048 .bf16) (sv bv : FVec Ideal S1x2048 .f32)

/-- The first product: the block against the upper weights plus its complement against the lower ones. -/
def h1blk : FVec Ideal S512x2048 .f32 :=
  addf (matmul dot_S512x784_S784x2048_S512x2048_1_0_0_1_n_n none (truncf .bf16 x0 bitsLt_bf16_f32)
      (shapeCast S784x2048 wa shapeCasts_S784x2048_S784x2048) (constant S512x2048 .f32 0x00000000#32))
    (matmul dot_S512x784_S784x2048_S512x2048_1_0_0_1_n_n none
      (truncf .bf16 (subf (broadcast S512x784 (Scalar.ofBits (F := Ideal) .f32 0x3F800000#32)) x0) bitsLt_bf16_f32)
      (shapeCast S784x2048 wb shapeCasts_S784x2048_S784x2048) (constant S512x2048 .f32 0x00000000#32))

/-- The first payload is the comparison of the normalised first product with zero. -/
theorem pay2_eq : k0_pay2 (F := Ideal) x0 wa wb sv bv
    = cmpf .ogt (chain (h1blk x0 wa wb) sv bv 0x00000000#32 0x45000000#32 0x358637BD#32 reduces_S512x2048_S512 (.inl rfl) rfl
        shapeCasts_S512_S512x1 broadcasts_S512x1_S512x2048 shapeCasts_S1x2048_S1x2048 broadcasts_S1x2048_S512x2048)
      (broadcast S512x2048 (Scalar.ofBits (F := Ideal) .f32 0x00000000#32)) := rfl

variable (xr : Fin 512 → Fin 784 → EReal) (W1 : (⟨2, ![1568, 2048]⟩ : Shape).Idx → EReal)
  (s1 b1 : (⟨1, ![2048]⟩ : Shape).Idx → EReal)

theorem h1blk_apply (hx : ∀ p k, x0 (ix2 p k) = xr p k) (hwa : ∀ k j, wa (ix2 k j) = step (W1 (ix2 (lo k) j)))
    (hwb : ∀ k j, wb (ix2 k j) = step (W1 (ix2 (hi k) j))) (p : Fin 512) (j : Fin 2048) :
    h1blk x0 wa wb (ix2 p j) = first (xr p) W1 j := by
  unfold h1blk first
  rw [addf_apply, mm_apply plainA, mm_apply plainA]
  congr 1
  · exact Finset.sum_congr rfl fun k _ => by rw [truncf_apply, hx, shapeCast_self, hwa]
  · refine Finset.sum_congr rfl fun k _ => ?_
    rw [truncf_apply, subf_apply, broadcast_apply, hx, shapeCast_self, hwb]
    rfl

/-- The first mask at `(p, j)`: the comparison of the row's first normalised entry `j` with zero. -/
theorem mask1_apply (hx : ∀ p k, x0 (ix2 p k) = xr p k) (hwa : ∀ k j, wa (ix2 k j) = step (W1 (ix2 (lo k) j)))
    (hwb : ∀ k j, wb (ix2 k j) = step (W1 (ix2 (hi k) j)))
    (hs : ∀ j, sv (ix2 (0 : Fin 1) j) = vec s1 j) (hb : ∀ j, bv (ix2 (0 : Fin 1) j) = vec b1 j) (p : Fin 512) (j : Fin 2048) :
    k0_pay2 (F := Ideal) x0 wa wb sv bv (ix2 p j) = Ideal.cmp .ogt (norm1 (xr p) W1 s1 b1 j) (Ideal.ofBits .f32 0x00000000#32) := by
  have hc := chain_apply (h1blk x0 wa wb) sv bv 0x00000000#32 0x45000000#32 0x358637BD#32 (by decide) reduces_S512x2048_S512
    (.inl rfl) rfl shapeCasts_S512_S512x1 broadcasts_S512x1_S512x2048 shapeCasts_S1x2048_S1x2048 broadcasts_S1x2048_S512x2048 p j
  rw [pay2_eq, cmpf_apply, broadcast_apply, hc]
  have e1 : (fun k => h1blk x0 wa wb (ix2 p k)) = first (xr p) W1 := funext fun k => h1blk_apply x0 wa wb xr W1 hx hwa hwb p k
  rw [e1, funext hs, funext hb]
  rfl
end Layer1

/-! ## The second layer, through the third product -/

section Layer2
variable (v39 : IVec S512x2048 1) (w2 : FVec Ideal S2048x1024 .bf16) (sv bv : FVec Ideal S1x1024 .f32) (w3 : FVec Ideal S1024x512 .bf16)

/-- The second product: the first activations against the second weights. -/
def h2blk : FVec Ideal S512x1024 .f32 :=
  matmul dot_S512x2048_S2048x1024_S512x1024_1_0_0_1_n_n none
    (truncf .bf16 (sitofp (F := Ideal) .f32 (extui 32 v39 natLt_1_32)) bitsLt_bf16_f32)
    (shapeCast S2048x1024 w2 shapeCasts_S2048x1024_S2048x1024) (constant S512x1024 .f32 0x00000000#32)

/-- The second payload is the third product: the thresholded normalised second product against the third weights. -/
theorem pay3_eq : k0_pay3 (F := Ideal) v39 w2 sv bv w3
    = matmul dot_S512x1024_S1024x512_S512x512_1_0_0_1_n_n none
        (truncf .bf16 (sitofp (F := Ideal) .f32 (extui 32
          (cmpf .ogt (chain (h2blk v39 w2) sv bv 0x00000000#32 0x44800000#32 0x358637BD#32 reduces_S512x1024_S512 (.inl rfl) rfl
              shapeCasts_S512_S512x1 broadcasts_S512x1_S512x1024 shapeCasts_S1x1024_S1x1024 broadcasts_S1x1024_S512x1024)
            (broadcast S512x1024 (Scalar.ofBits (F := Ideal) .f32 0x00000000#32))) natLt_1_32)) bitsLt_bf16_f32)
        (shapeCast S1024x512 w3 shapeCasts_S1024x512_S1024x512) (constant S512x512 .f32 0x00000000#32) := rfl

/-- The third payload is that product's row sums as a column. -/
theorem pay4_eq : k0_pay4 (F := Ideal) v39 w2 sv bv w3
    = shapeCast S512x1 (multiReduction .add [1] S512 (k0_pay3 (F := Ideal) v39 w2 sv bv w3) 0x00000000#32 reduces_S512x512_S512 (.inl rfl) rfl)
        shapeCasts_S512_S512x1 := rfl

variable (xr : Fin 512 → Fin 784 → EReal) (W1 : (⟨2, ![1568, 2048]⟩ : Shape).Idx → EReal)
  (W2 : (⟨2, ![2048, 1024]⟩ : Shape).Idx → EReal) (W3 : (⟨2, ![1024, 512]⟩ : Shape).Idx → EReal)
  (s1 b1 : (⟨1, ![2048]⟩ : Shape).Idx → EReal) (s2 b2 : (⟨1, ![1024]⟩ : Shape).Idx → EReal)

theorem h2blk_apply (hm : ∀ p j, v39 (ix2 p j) = Ideal.cmp .ogt (norm1 (xr p) W1 s1 b1 j) (Ideal.ofBits .f32 0x00000000#32))
    (hw2 : ∀ k j, w2 (ix2 k j) = bin W2 k j) (p : Fin 512) (j : Fin 1024) :
    h2blk v39 w2 (ix2 p j) = dense (act1 (xr p) W1 s1 b1) (bin W2) j := by
  unfold h2blk
  rw [mm_apply plainB]
  refine Finset.sum_congr rfl fun k _ => ?_
  rw [maskVal_apply, hm, step_of_signed, shapeCast_self, hw2]
  rfl

/-- The third product at `(p, j)`. -/
theorem h3_apply (hm : ∀ p j, v39 (ix2 p j) = Ideal.cmp .ogt (norm1 (xr p) W1 s1 b1 j) (Ideal.ofBits .f32 0x00000000#32))
    (hw2 : ∀ k j, w2 (ix2 k j) = bin W2 k j) (hs : ∀ j, sv (ix2 (0 : Fin 1) j) = vec s2 j)
    (hb : ∀ j, bv (ix2 (0 : Fin 1) j) = vec b2 j) (hw3 : ∀ k j, w3 (ix2 k j) = bin W3 k j) (p : Fin 512) (j : Fin 512) :
    k0_pay3 (F := Ideal) v39 w2 sv bv w3 (ix2 p j) = dense (act2 (xr p) W1 W2 s1 b1 s2 b2) (bin W3) j := by
  rw [pay3_eq, mm_apply plainC]
  refine Finset.sum_congr rfl fun k _ => ?_
  have hc := chain_apply (h2blk v39 w2) sv bv 0x00000000#32 0x44800000#32 0x358637BD#32 (by decide) reduces_S512x1024_S512
    (.inl rfl) rfl shapeCasts_S512_S512x1 broadcasts_S512x1_S512x1024 shapeCasts_S1x1024_S1x1024 broadcasts_S1x1024_S512x1024 p k
  rw [maskVal_apply, cmpf_apply, broadcast_apply, hc]
  have e2 : (fun i => h2blk v39 w2 (ix2 p i)) = dense (act1 (xr p) W1 s1 b1) (bin W2) :=
    funext fun i => h2blk_apply v39 w2 xr W1 W2 s1 b1 hm hw2 p i
  rw [e2, funext hs, funext hb, shapeCast_self, hw3]
  exact congrArg (· * bin W3 k j) (step_of_signed _)
end Layer2

/-! ## The third layer and the output -/

section Layer3
variable (h3 : FVec Ideal S512x512 .f32) (sv bv : FVec Ideal S1x512 .f32) (w4 : FVec Ideal S512x10 .bf16)

/-- The last payload, given the third product and its row sums: the thresholded normalised third product against the
    last weights. -/
theorem pay1_eq : k0_pay1 (F := Ideal) h3
      (shapeCast S512x1 (multiReduction .add [1] S512 h3 0x00000000#32 reduces_S512x512_S512 (.inl rfl) rfl) shapeCasts_S512_S512x1)
      (Scalar.ofBits (F := Ideal) .f32 0x44000000#32) sv bv w4
    = matmul dot_S512x512_S512x10_S512x10_1_0_0_1_n_n none
        (truncf .bf16 (sitofp (F := Ideal) .f32 (extui 32
          (cmpf .ogt (chain h3 sv bv 0x00000000#32 0x44000000#32 0x358637BD#32 reduces_S512x512_S512 (.inl rfl) rfl
              shapeCasts_S512_S512x1 broadcasts_S512x1_S512x512 shapeCasts_S1x512_S1x512 broadcasts_S1x512_S512x512)
            (broadcast S512x512 (Scalar.ofBits (F := Ideal) .f32 0x00000000#32))) natLt_1_32)) bitsLt_bf16_f32)
        (shapeCast S512x10 w4 shapeCasts_S512x10_S512x10) (constant S512x10 .f32 0x00000000#32) := rfl

variable (hrow : Fin 512 → Fin 512 → EReal) (W4 : (⟨2, ![512, 10]⟩ : Shape).Idx → EReal) (s3 b3 : (⟨1, ![512]⟩ : Shape).Idx → EReal)

/-- The output block at `(p, n)`, for a third product whose rows are `hrow`. -/
theorem out_apply (hh : ∀ p j, h3 (ix2 p j) = hrow p j) (hs : ∀ j, sv (ix2 (0 : Fin 1) j) = vec s3 j)
    (hb : ∀ j, bv (ix2 (0 : Fin 1) j) = vec b3 j) (hw4 : ∀ k j, w4 (ix2 k j) = bin W4 k j) (p : Fin 512) (n : Fin 10) :
    k0_pay1 (F := Ideal) h3
      (shapeCast S512x1 (multiReduction .add [1] S512 h3 0x00000000#32 reduces_S512x512_S512 (.inl rfl) rfl) shapeCasts_S512_S512x1)
      (Scalar.ofBits (F := Ideal) .f32 0x44000000#32) sv bv w4 (ix2 p n)
      = dense (fun j => step (rowNorm cnt3 eps (hrow p) (vec s3) (vec b3) j)) (bin W4) n := by
  rw [pay1_eq, mm_apply plainD]
  refine Finset.sum_congr rfl fun k _ => ?_
  have hc := chain_apply h3 sv bv 0x00000000#32 0x44000000#32 0x358637BD#32 (by decide) reduces_S512x512_S512
    (.inl rfl) rfl shapeCasts_S512_S512x1 broadcasts_S512x1_S512x512 shapeCasts_S1x512_S1x512 broadcasts_S1x512_S512x512 p k
  rw [maskVal_apply, cmpf_apply, broadcast_apply, hc]
  have e3 : (fun i => h3 (ix2 p i)) = hrow p := funext fun i => hh p i
  rw [e3, funext hs, funext hb, shapeCast_self, hw4]
  exact congrArg (· * bin W4 k n) (step_of_signed _)
end Layer3

/-! ## The whole body on a block -/

section Whole
variable (x0 : FVec Ideal S512x784 .f32) (wa wb : FVec Ideal S784x2048 .bf16) (w2 : FVec Ideal S2048x1024 .bf16)
  (w3 : FVec Ideal S1024x512 .bf16) (w4 : FVec Ideal S512x10 .bf16) (sv1 bv1 : FVec Ideal S1x2048 .f32)
  (sv2 bv2 : FVec Ideal S1x1024 .f32) (sv3 bv3 : FVec Ideal S1x512 .f32)
  (xr : Fin 512 → Fin 784 → EReal) (W1 : (⟨2, ![1568, 2048]⟩ : Shape).Idx → EReal)
  (W2 : (⟨2, ![2048, 1024]⟩ : Shape).Idx → EReal) (W3 : (⟨2, ![1024, 512]⟩ : Shape).Idx → EReal)
  (W4 : (⟨2, ![512, 10]⟩ : Shape).Idx → EReal)
  (s1 b1 : (⟨1, ![2048]⟩ : Shape).Idx → EReal) (s2 b2 : (⟨1, ![1024]⟩ : Shape).Idx → EReal)
  (s3 b3 : (⟨1, ![512]⟩ : Shape).Idx → EReal)

/-- What the body stores at `(p, n)` of its output block is entry `n` of the pass on the block's row `p`. -/
theorem block_apply (hx : ∀ p k, x0 (ix2 p k) = xr p k) (hwa : ∀ k j, wa (ix2 k j) = step (W1 (ix2 (lo k) j)))
    (hwb : ∀ k j, wb (ix2 k j) = step (W1 (ix2 (hi k) j))) (hw2 : ∀ k j, w2 (ix2 k j) = bin W2 k j)
    (hw3 : ∀ k j, w3 (ix2 k j) = bin W3 k j) (hw4 : ∀ k j, w4 (ix2 k j) = bin W4 k j)
    (hs1 : ∀ j, sv1 (ix2 (0 : Fin 1) j) = vec s1 j) (hb1 : ∀ j, bv1 (ix2 (0 : Fin 1) j) = vec b1 j)
    (hs2 : ∀ j, sv2 (ix2 (0 : Fin 1) j) = vec s2 j) (hb2 : ∀ j, bv2 (ix2 (0 : Fin 1) j) = vec b2 j)
    (hs3 : ∀ j, sv3 (ix2 (0 : Fin 1) j) = vec s3 j) (hb3 : ∀ j, bv3 (ix2 (0 : Fin 1) j) = vec b3 j)
    (p : Fin 512) (n : Fin 10) :
    k0_pay1 (F := Ideal) (k0_pay3 (F := Ideal) (k0_pay2 (F := Ideal) x0 wa wb sv1 bv1) w2 sv2 bv2 w3) (k0_pay4 (F := Ideal) (k0_pay2 (F := Ideal) x0 wa wb sv1 bv1) w2 sv2 bv2 w3)
        (Scalar.ofBits (F := Ideal) .f32 0x44000000#32) sv3 bv3 w4 (ix2 p n)
      = outRow (xr p) W1 W2 W3 W4 s1 b1 s2 b2 s3 b3 n := by
  rw [pay4_eq]
  exact out_apply (k0_pay3 (F := Ideal) (k0_pay2 (F := Ideal) x0 wa wb sv1 bv1) w2 sv2 bv2 w3) sv3 bv3 w4
    (fun q => dense (act2 (xr q) W1 W2 s1 b1 s2 b2) (bin W3)) W4 s3 b3
    (fun q j => h3_apply (k0_pay2 (F := Ideal) x0 wa wb sv1 bv1) w2 sv2 bv2 w3 xr W1 W2 W3 s1 b1 s2 b2
      (fun q' j' => mask1_apply x0 wa wb sv1 bv1 xr W1 s1 b1 hx hwa hwb hs1 hb1 q' j') hw2 hs2 hb2 hw3 q j)
    hs3 hb3 hw4 p n
end Whole

end Cert.KernelIdeal.Body

end
-- ==== Proof.KernelWhole.lean ====
/-
  From blocks to the array: the kernel's result is the row pass `G` of its arguments.

  The grid has 64 points. At point `t` the input window holds rows `512 t … 512 t + 511` of the input, every other input
  window holds its whole array (their block indices are zero at every point), and the output window writes back rows
  `512 t … 512 t + 511` of the result. So what point `t` writes back is block `t` of `G`: entry `(p, n)` of the block is
  the pass on input row `512 t + p`, at column `n`. The 64 blocks cover the 32768 rows (row `r` lies in block `r / 512`),
  so the array after the run is `G`.
-/
import proofs.«172270_j10136122818966_1_alg».proof.Proof.Gen.KernelIdeal.Value
import proofs.«172270_j10136122818966_1_alg».proof.Proof.KernelEntry
import proofs.«172270_j10136122818966_1_alg».proof.Proof.KernelBody
import Idealize.ShloMosaic.Lib.Pipeline.Value

set_option maxRecDepth 16384

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.BinaryMlp Cert.KernelIdeal.Entry Cert.KernelIdeal.Body

variable (m : (ℓ : Loc nD τ sig) → Buf (Elt Ideal) ℓ) (ρ : Dev nD → PrngReg)

theorem hz : (![0, 0] : Fin 2 → Nat) = fun _ => 0 := funext fun a => by fin_cases a <;> rfl

/-- The result as one function of the arguments as launched. -/
abbrev result (c : Dev nD) : S32768x10.Idx → EReal :=
  G (aX m c) (aW1 m c) (aW2 m c) (aW3 m c) (aW4 m c) (aS1 m c) (aB1 m c) (aS2 m c) (aB2 m c) (aS3 m c) (aB3 m c)

/-- The printed index maps, decided over the 64 points: the input and the output move one block of rows per point, every
    other window stays at block zero. -/
theorem idx_facts : ∀ t : Fin cfg0.N,
    win0_0.index t (0 : Fin 2) = t.val ∧ win0_0.index t (1 : Fin 2) = 0
    ∧ win0_12.index t (0 : Fin 2) = t.val ∧ win0_12.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0 :=
  (by decide +kernel : ∀ t : Fin grid0.N, _)

/-- Row `p` of the block at point `t` is row `512 t + p` of the array. -/
def rowAt (t : Fin cfg0.N) (p : Fin 512) : Fin 32768 :=
  ⟨512 * t.val + p.val, by have h : t.val < 64 := N_0 ▸ t.isLt; have := p.isLt; omega⟩

/-! ## The input windows' blocks -/

/-- The input block at point `t`: its row `p` is row `512 t + p` of the input as launched. -/
theorem xblk_apply (c : Dev nD) (t : Fin cfg0.N) (p : Fin 512) (k : Fin 784) :
    iblk m c 0 t (ix2 p k) = aX m c (ix2 (rowAt t p) k) := by
  show V m c main_arg0 (((cfg0.win 0).blk t).view.emb (ix2 p k)) = _
  rw [V_main_arg0]
  refine congrArg (m ((c : Thread nD τ).loc main_arg0)) (funext fun a => Fin.ext ?_)
  have e0 := (idx_facts t).1
  have e1 := (idx_facts t).2.1
  match a with
  | ⟨0, _⟩ => show win0_0.index t (0 : Fin 2) * 512 + 1 * p.val = 512 * t.val + p.val; omega
  | ⟨1, _⟩ => show win0_0.index t (1 : Fin 2) * 784 + 1 * k.val = k.val; omega

/-- Window 1 holds its whole array at every point. -/
theorem blk1_apply (c : Dev nD) (t : Fin cfg0.N) (k : Fin 784) (j : Fin 2048) :
    iblk m c 1 t (ix2 k j) = (V m c main_v3 : S784x2048.Idx → EReal) (ix2 k j) := by
  show V m c main_v3 (((cfg0.win 1).blk t).view.emb (ix2 k j)) = _
  refine congrArg (V m c main_v3) (funext fun a => Fin.ext ?_)
  have e0 := (idx_facts t).2.2.2.2.1
  have e1 := (idx_facts t).2.2.2.2.2.1
  match a with
  | ⟨0, _⟩ => show win0_1.index t (0 : Fin 2) * 784 + 1 * k.val = k.val; omega
  | ⟨1, _⟩ => show win0_1.index t (1 : Fin 2) * 2048 + 1 * j.val = j.val; omega

/-- Window 2 holds its whole array at every point. -/
theorem blk2_apply (c : Dev nD) (t : Fin cfg0.N) (k : Fin 784) (j : Fin 2048) :
    iblk m c 2 t (ix2 k j) = (V m c main_v4 : S784x2048.Idx → EReal) (ix2 k j) := by
  show V m c main_v4 (((cfg0.win 2).blk t).view.emb (ix2 k j)) = _
  refine congrArg (V m c main_v4) (funext fun a => Fin.ext ?_)
  have e0 := (idx_facts t).2.2.2.2.2.2.1
  have e1 := (idx_facts t).2.2.2.2.2.2.2.1
  match a with
  | ⟨0, _⟩ => show win0_2.index t (0 : Fin 2) * 784 + 1 * k.val = k.val; omega
  | ⟨1, _⟩ => show win0_2.index t (1 : Fin 2) * 2048 + 1 * j.val = j.val; omega

/-- Window 3 holds its whole array at every point. -/
theorem blk3_apply (c : Dev nD) (t : Fin cfg0.N) (k : Fin 2048) (j : Fin 1024) :
    iblk m c 3 t (ix2 k j) = (V m c main_v7 : S2048x1024.Idx → EReal) (ix2 k j) := by
  show V m c main_v7 (((cfg0.win 3).blk t).view.emb (ix2 k j)) = _
  refine congrArg (V m c main_v7) (funext fun a => Fin.ext ?_)
  have e0 := (idx_facts t).2.2.2.2.2.2.2.2.1
  have e1 := (idx_facts t).2.2.2.2.2.2.2.2.2.1
  match a with
  | ⟨0, _⟩ => show win0_3.index t (0 : Fin 2) * 2048 + 1 * k.val = k.val; omega
  | ⟨1, _⟩ => show win0_3.index t (1 : Fin 2) * 1024 + 1 * j.val = j.val; omega

/-- Window 4 holds its whole array at every point. -/
theorem blk4_apply (c : Dev nD) (t : Fin cfg0.N) (k : Fin 1024) (j : Fin 512) :
    iblk m c 4 t (ix2 k j) = (V m c main_v10 : S1024x512.Idx → EReal) (ix2 k j) := by
  show V m c main_v10 (((cfg0.win 4).blk t).view.emb (ix2 k j)) = _
  refine congrArg (V m c main_v10) (funext fun a => Fin.ext ?_)
  have e0 := (idx_facts t).2.2.2.2.2.2.2.2.2.2.1
  have e1 := (idx_facts t).2.2.2.2.2.2.2.2.2.2.2.1
  match a with
  | ⟨0, _⟩ => show win0_4.index t (0 : Fin 2) * 1024 + 1 * k.val = k.val; omega
  | ⟨1, _⟩ => show win0_4.index t (1 : Fin 2) * 512 + 1 * j.val = j.val; omega

/-- Window 5 holds its whole array at every point. -/
theorem blk5_apply (c : Dev nD) (t : Fin cfg0.N) (k : Fin 512) (j : Fin 10) :
    iblk m c 5 t (ix2 k j) = (V m c main_v13 : S512x10.Idx → EReal) (ix2 k j) := by
  show V m c main_v13 (((cfg0.win 5).blk t).view.emb (ix2 k j)) = _
  refine congrArg (V m c main_v13) (funext fun a => Fin.ext ?_)
  have e0 := (idx_facts t).2.2.2.2.2.2.2.2.2.2.2.2.1
  have e1 := (idx_facts t).2.2.2.2.2.2.2.2.2.2.2.2.2.1
  match a with
  | ⟨0, _⟩ => show win0_5.index t (0 : Fin 2) * 512 + 1 * k.val = k.val; omega
  | ⟨1, _⟩ => show win0_5.index t (1 : Fin 2) * 10 + 1 * j.val = j.val; omega

/-- Window 6 holds its whole array at every point. -/
theorem blk6_apply (c : Dev nD) (t : Fin cfg0.N) (k : Fin 1) (j : Fin 2048) :
    iblk m c 6 t (ix2 k j) = (V m c main_v14 : S1x2048.Idx → EReal) (ix2 k j) := by
  show V m c main_v14 (((cfg0.win 6).blk t).view.emb (ix2 k j)) = _
  refine congrArg (V m c main_v14) (funext fun a => Fin.ext ?_)
  have e0 := (idx_facts t).2.2.2.2.2.2.2.2.2.2.2.2.2.2.1
  have e1 := (idx_facts t).2.2.2.2.2.2.2.2.2.2.2.2.2.2.2.1
  match a with
  | ⟨0, _⟩ => show win0_6.index t (0 : Fin 2) * 1 + 1 * k.val = k.val; omega
  | ⟨1, _⟩ => show win0_6.index t (1 : Fin 2) * 2048 + 1 * j.val = j.val; omega

/-- Window 7 holds its whole array at every point. -/
theorem blk7_apply (c : Dev nD) (t : Fin cfg0.N) (k : Fin 1) (j : Fin 2048) :
    iblk m c 7 t (ix2 k j) = (V m c main_v15 : S1x2048.Idx → EReal) (ix2 k j) := by
  show V m c main_v15 (((cfg0.win 7).blk t).view.emb (ix2 k j)) = _
  refine congrArg (V m c main_v15) (funext fun a => Fin.ext ?_)
  have e0 := (idx_facts t).2.2.2.2.2.2.2.2.2.2.2.2.2.2.2.2.1
  have e1 := (idx_facts t).2.2.2.2.2.2.2.2.2.2.2.2.2.2.2.2.2.1
  match a with
  | ⟨0, _⟩ => show win0_7.index t (0 : Fin 2) * 1 + 1 * k.val = k.val; omega
  | ⟨1, _⟩ => show win0_7.index t (1 : Fin 2) * 2048 + 1 * j.val = j.val; omega

/-- Window 8 holds its whole array at every point. -/
theorem blk8_apply (c : Dev nD) (t : Fin cfg0.N) (k : Fin 1) (j : Fin 1024) :
    iblk m c 8 t (ix2 k j) = (V m c main_v16 : S1x1024.Idx → EReal) (ix2 k j) := by
  show V m c main_v16 (((cfg0.win 8).blk t).view.emb (ix2 k j)) = _
  refine congrArg (V m c main_v16) (funext fun a => Fin.ext ?_)
  have e0 := (idx_facts t).2.2.2.2.2.2.2.2.2.2.2.2.2.2.2.2.2.2.1
  have e1 := (idx_facts t).2.2.2.2.2.2.2.2.2.2.2.2.2.2.2.2.2.2.2.1
  match a with
  | ⟨0, _⟩ => show win0_8.index t (0 : Fin 2) * 1 + 1 * k.val = k.val; omega
  | ⟨1, _⟩ => show win0_8.index t (1 : Fin 2) * 1024 + 1 * j.val = j.val; omega

/-- Window 9 holds its whole array at every point. -/
theorem blk9_apply (c : Dev nD) (t : Fin cfg0.N) (k : Fin 1) (j : Fin 1024) :
    iblk m c 9 t (ix2 k j) = (V m c main_v17 : S1x1024.Idx → EReal) (ix2 k j) := by
  show V m c main_v17 (((cfg0.win 9).blk t).view.emb (ix2 k j)) = _
  refine congrArg (V m c main_v17) (funext fun a => Fin.ext ?_)
  have e0 := (idx_facts t).2.2.2.2.2.2.2.2.2.2.2.2.2.2.2.2.2.2.2.2.1
  have e1 := (idx_facts t).2.2.2.2.2.2.2.2.2.2.2.2.2.2.2.2.2.2.2.2.2.1
  match a with
  | ⟨0, _⟩ => show win0_9.index t (0 : Fin 2) * 1 + 1 * k.val = k.val; omega
  | ⟨1, _⟩ => show win0_9.index t (1 : Fin 2) * 1024 + 1 * j.val = j.val; omega

/-- Window 10 holds its whole array at every point. -/
theorem blk10_apply (c : Dev nD) (t : Fin cfg0.N) (k : Fin 1) (j : Fin 512) :
    iblk m c 10 t (ix2 k j) = (V m c main_v18 : S1x512.Idx → EReal) (ix2 k j) := by
  show V m c main_v18 (((cfg0.win 10).blk t).view.emb (ix2 k j)) = _
  refine congrArg (V m c main_v18) (funext fun a => Fin.ext ?_)
  have e0 := (idx_facts t).2.2.2.2.2.2.2.2.2.2.2.2.2.2.2.2.2.2.2.2.2.2.1
  have e1 := (idx_facts t).2.2.2.2.2.2.2.2.2.2.2.2.2.2.2.2.2.2.2.2.2.2.2.1
  match a with
  | ⟨0, _⟩ => show win0_10.index t (0 : Fin 2) * 1 + 1 * k.val = k.val; omega
  | ⟨1, _⟩ => show win0_10.index t (1 : Fin 2) * 512 + 1 * j.val = j.val; omega

/-- Window 11 holds its whole array at every point. -/
theorem blk11_apply (c : Dev nD) (t : Fin cfg0.N) (k : Fin 1) (j : Fin 512) :
    iblk m c 11 t (ix2 k j) = (V m c main_v19 : S1x512.Idx → EReal) (ix2 k j) := by
  show V m c main_v19 (((cfg0.win 11).blk t).view.emb (ix2 k j)) = _
  refine congrArg (V m c main_v19) (funext fun a => Fin.ext ?_)
  have e0 := (idx_facts t).2.2.2.2.2.2.2.2.2.2.2.2.2.2.2.2.2.2.2.2.2.2.2.2.1
  have e1 := (idx_facts t).2.2.2.2.2.2.2.2.2.2.2.2.2.2.2.2.2.2.2.2.2.2.2.2.2
  match a with
  | ⟨0, _⟩ => show win0_11.index t (0 : Fin 2) * 1 + 1 * k.val = k.val; omega
  | ⟨1, _⟩ => show win0_11.index t (1 : Fin 2) * 512 + 1 * j.val = j.val; omega

/-! ## What a point writes back, and the whole array -/

/-- Entry `(p, n)` of the output block at point `t` sits at `(512 t + p, n)` of the array. -/
theorem oemb (t : Fin cfg0.N) (p : Fin 512) (n : Fin 10) :
    ((cfg0.win 12).blk t).view.emb (ix2 p n) = ix2 (rowAt t p) n := by
  funext a
  refine Fin.ext ?_
  have e0 := (idx_facts t).2.2.1
  have e1 := (idx_facts t).2.2.2.1
  match a with
  | ⟨0, _⟩ => show win0_12.index t (0 : Fin 2) * 512 + 1 * p.val = 512 * t.val + p.val; omega
  | ⟨1, _⟩ => show win0_12.index t (1 : Fin 2) * 10 + 1 * n.val = n.val; omega

/-- WHAT POINT `t` WRITES BACK is block `t` of the result. -/
theorem flushed_eq (c : Dev nD) (t : Fin cfg0.N) :
    (dats m 0 c).flushed 12 t = ((cfg0.win 12).blk t).view.read (Elt Ideal) (result m c) := by
  rw [Cert.KernelIdeal.Value.flushed12]
  unfold out0_12
  rw [View.canon_unit_zero hz]
  simp only [View.ld_unit_zero (S := S512x784) hz, View.ld_unit_zero (S := S784x2048) hz, View.ld_unit_zero (S := S1x2048) hz,
    View.ld_unit_zero (S := S2048x1024) hz, View.ld_unit_zero (S := S1x1024) hz, View.ld_unit_zero (S := S1024x512) hz,
    View.ld_unit_zero (S := S1x512) hz, View.ld_unit_zero (S := S512x10) hz]
  funext y
  obtain ⟨p, n, rfl⟩ : ∃ (p : Fin 512) (n : Fin 10), y = ix2 p n := ⟨y 0, y 1, eq_ix2 y⟩
  refine (block_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t)
    (fun q k => aX m c (ix2 (rowAt t q) k)) (aW1 m c) (aW2 m c) (aW3 m c) (aW4 m c)
    (aS1 m c) (aB1 m c) (aS2 m c) (aB2 m c) (aS3 m c) (aB3 m c)
    (fun q k => xblk_apply m c t q k)
    (fun k j => (blk1_apply m c t k j).trans (wUpper_apply m c k j))
    (fun k j => (blk2_apply m c t k j).trans (wLower_apply m c k j))
    (fun k j => (blk3_apply m c t k j).trans (w2_apply m c k j))
    (fun k j => (blk4_apply m c t k j).trans (w3_apply m c k j))
    (fun k j => (blk5_apply m c t k j).trans (w4_apply m c k j))
    (fun j => (blk6_apply m c t 0 j).trans (s1_apply m c j))
    (fun j => (blk7_apply m c t 0 j).trans (b1_apply m c j))
    (fun j => (blk8_apply m c t 0 j).trans (s2_apply m c j))
    (fun j => (blk9_apply m c t 0 j).trans (b2_apply m c j))
    (fun j => (blk10_apply m c t 0 j).trans (s3_apply m c j))
    (fun j => (blk11_apply m c t 0 j).trans (b3_apply m c j)) p n).trans ?_
  show _ = result m c (((cfg0.win 12).blk t).view.emb (ix2 p n))
  rw [oemb]
  rfl

/-- An index of the array is in point `t`'s block iff each coordinate is in the block's range on its axis. -/
theorem mem_blk (t : Fin cfg0.N) (i : S32768x10.Idx) :
    i ∈ ((cfg0.win 12).blk t).view.set ↔ ∀ a : Fin 2, win0_12.index t a * S512x10.size a ≤ (i a).val ∧ (i a).val < win0_12.index t a * S512x10.size a + S512x10.size a := by
  show i ∈ ((View.whole main_v20).slice (win0_12.rect t)).set ↔ _
  rw [View.set_slice_whole, Rect.mem_set_unit]
  exact Iff.rfl

/-- Every index of the result lies in some point's block: row `r` in block `r / 512`. -/
theorem cover (i : S32768x10.Idx) : ∃ t : Fin cfg0.N, (cfg0.win 12).flush t = true ∧ i ∈ ((cfg0.win 12).blk t).view.set := by
  have hi0 : (i 0).val < 32768 := (i 0).isLt
  have hi1 : (i 1).val < 10 := (i 1).isLt
  have hN : cfg0.N = 64 := N_0
  let t : Fin cfg0.N := ⟨(i 0).val / 512, by rw [hN]; omega⟩
  have e0 : win0_12.index t (0 : Fin 2) = (i 0).val / 512 := (idx_facts t).2.2.1
  have e1 : win0_12.index t (1 : Fin 2) = 0 := (idx_facts t).2.2.2.1
  refine ⟨t, flush0_12 t, ?_⟩
  rw [mem_blk]
  intro a
  match a with
  | ⟨0, _⟩ => show win0_12.index t (0 : Fin 2) * 512 ≤ (i 0).val ∧ (i 0).val < win0_12.index t (0 : Fin 2) * 512 + 512; omega
  | ⟨1, _⟩ => show win0_12.index t (1 : Fin 2) * 10 ≤ (i 1).val ∧ (i 1).val < win0_12.index t (1 : Fin 2) * 10 + 10; omega

/-- THE ARRAY after the run is the result. -/
theorem final (c : Dev nD) : (dats m 0 c).arrAt 12 cfg0.N = result m c :=
  (dats m 0 c).arrAt_eq_of_cover 12 (result m c) (fun t _ => flushed_eq m c t) cover

/-- The run: the result array ends at `G` of the arguments, the arguments unchanged. -/
theorem run : θ_run defs (onTc (τ := τ) (main (F := Ideal))) ⟨m, fun _ => 0, ρ⟩ fun r => ∀ c : Dev nD,
      r.2.mem ((c : Thread nD τ).loc main_v20) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Cert.KernelIdeal.Value.run_blocks m ρ)

end Cert.KernelIdeal.Whole

end
-- ==== Proof.LibConcat2.lean ====
/-
  A matrix assembled from two pieces, read at an entry.

  `rows_upper` / `rows_lower`: `[a, c]` on top of `[b, c]` (a concatenation along axis 0) read at row `r`: the
  upper piece at row `r` when `r < a`, the lower piece at row `r - a` otherwise.
  `cols_left` / `cols_right`: `[r, a]` beside `[r, b]` (along axis 1) likewise at a column.
  Generic in the extents and in the entries' type; the caller names the piece's own index and the one
  equation that places it.
-/
import Idealize.ShloMosaic.Lib.Pipeline.Value
import Idealize.ShloMosaic.Lib.ValueIdx

namespace Cert.LibConcat2

open Idealize.ShloMosaic Idealize.ShloMosaic.ValueIdx

variable {α : Type}

/-- Two blocks of rows, read at a row of the upper block. -/
theorem rows_upper {a b t c : ℕ} (x : (⟨2, ![a, c]⟩ : Shape).Idx → α) (y : (⟨2, ![b, c]⟩ : Shape).Idx → α)
    (h : Shape.Concatenates [(⟨2, ![a, c]⟩ : Shape), ⟨2, ![b, c]⟩] ⟨2, ![t, c]⟩ 0)
    (r : Fin t) (j : Fin c) (i : Fin a) (hi : i.val = r.val) :
    concatenate ⟨2, ![t, c]⟩ 0 [⟨⟨2, ![a, c]⟩, x⟩, ⟨⟨2, ![b, c]⟩, y⟩] h (ix2 r j) = x (ix2 i j) :=
  concatenate_pair_apply_left 0 x y h (ix2 r j) rfl (ix2 i j)
    (fun d => match d with | ⟨0, _⟩ => hi | ⟨1, _⟩ => rfl)

/-- Two blocks of rows, read at a row of the lower block: its own row index is the row less the upper block's height. -/
theorem rows_lower {a b t c : ℕ} (x : (⟨2, ![a, c]⟩ : Shape).Idx → α) (y : (⟨2, ![b, c]⟩ : Shape).Idx → α)
    (h : Shape.Concatenates [(⟨2, ![a, c]⟩ : Shape), ⟨2, ![b, c]⟩] ⟨2, ![t, c]⟩ 0)
    (r : Fin t) (j : Fin c) (i : Fin b) (hi : i.val + a = r.val) :
    concatenate ⟨2, ![t, c]⟩ 0 [⟨⟨2, ![a, c]⟩, x⟩, ⟨⟨2, ![b, c]⟩, y⟩] h (ix2 r j) = y (ix2 i j) :=
  concatenate_pair_apply_right 0 x y h (ix2 r j) rfl rfl (ix2 i j)
    (fun d hd => match d, hd with
      | ⟨0, _⟩, hd => (hd (Fin.ext rfl)).elim
      | ⟨1, _⟩, _ => rfl) hi

/-- Two blocks of columns, read at a column of the left block. -/
theorem cols_left {r a b t : ℕ} (x : (⟨2, ![r, a]⟩ : Shape).Idx → α) (y : (⟨2, ![r, b]⟩ : Shape).Idx → α)
    (h : Shape.Concatenates [(⟨2, ![r, a]⟩ : Shape), ⟨2, ![r, b]⟩] ⟨2, ![r, t]⟩ 1)
    (i : Fin r) (q : Fin t) (j : Fin a) (hj : j.val = q.val) :
    concatenate ⟨2, ![r, t]⟩ 1 [⟨⟨2, ![r, a]⟩, x⟩, ⟨⟨2, ![r, b]⟩, y⟩] h (ix2 i q) = x (ix2 i j) :=
  concatenate_pair_apply_left 1 x y h (ix2 i q) rfl (ix2 i j)
    (fun d => match d with | ⟨0, _⟩ => rfl | ⟨1, _⟩ => hj)

/-- Two blocks of columns, read at a column of the right block. -/
theorem cols_right {r a b t : ℕ} (x : (⟨2, ![r, a]⟩ : Shape).Idx → α) (y : (⟨2, ![r, b]⟩ : Shape).Idx → α)
    (h : Shape.Concatenates [(⟨2, ![r, a]⟩ : Shape), ⟨2, ![r, b]⟩] ⟨2, ![r, t]⟩ 1)
    (i : Fin r) (q : Fin t) (j : Fin b) (hj : j.val + a = q.val) :
    concatenate ⟨2, ![r, t]⟩ 1 [⟨⟨2, ![r, a]⟩, x⟩, ⟨⟨2, ![r, b]⟩, y⟩] h (ix2 i q) = y (ix2 i j) :=
  concatenate_pair_apply_right 1 x y h (ix2 i q) rfl rfl (ix2 i j)
    (fun d hd => match d, hd with
      | ⟨0, _⟩, _ => rfl
      | ⟨1, _⟩, hd => (hd (Fin.ext rfl)).elim) hj

end Cert.LibConcat2
-- ==== Proof.RefValue.lean ====
/-
  The reference's result is the row pass `G` of its arguments.

  The reference computes on whole arrays of 32768 rows. Each of its stages, read at an entry `(p, j)`, depends on row
  `p` of the input only, and is the corresponding stage of the row pass: the first product acts on the row joined with
  its complement, which is `first`; every weight matrix and every activation is thresholded the soft way, which is
  `step`; a row mean, the centred row and the normalised row are `mean` and `rowNorm`; the later products are `dense`.

  The stages are named here at their array types (`h1`, `mu1`, `cen1`, `ln1`, … for the products, the row means as
  columns, the centred and the normalised arrays; `sgW`, `sgA` for the logistic of a weight matrix and of a scaled
  normalised array), each with its defining equation over the earlier ones.
-/
import proofs.«172270_j10136122818966_1_alg».proof.Proof.Gen.ReferenceIdeal.Run
import proofs.«172270_j10136122818966_1_alg».proof.Proof.RowSpec
import proofs.«172270_j10136122818966_1_alg».proof.Proof.NormHost
import proofs.«172270_j10136122818966_1_alg».proof.Proof.LibPlainDot
import proofs.«172270_j10136122818966_1_alg».proof.Proof.LibConcat2

open scoped BigOperators

noncomputable section

namespace Cert.ReferenceIdeal.RefValue

open Cert.ReferenceIdeal Cert.ReferenceIdeal.Gen Cert.ReferenceIdeal.Value Idealize.ShloMosaic Idealize.ShloMosaic.TcCoe Idealize.SL.Sem
open Idealize.ShloMosaic.StableHlo Idealize.ShloMosaic.ValueIdx Idealize.ShloMosaic.ValueLayout
open Cert.BinaryMlp Cert.BinaryMlp.HostSide Cert.Lib.RowNormHost Idealize.ShloMosaic.PlainDot

variable (V0 : Valuation τ sig (Elt Ideal))

/-! ## The arguments and the stages, at their array types -/

abbrev aX : FVec Ideal S32768x784 .f32 := V0 (Proc.devRef .tc main_arg0)
abbrev aW1 : FVec Ideal S1568x2048 .f32 := V0 (Proc.devRef .tc main_arg1)
abbrev aW2 : FVec Ideal S2048x1024 .f32 := V0 (Proc.devRef .tc main_arg2)
abbrev aW3 : FVec Ideal S1024x512 .f32 := V0 (Proc.devRef .tc main_arg3)
abbrev aW4 : FVec Ideal S512x10 .f32 := V0 (Proc.devRef .tc main_arg4)
abbrev aS1 : FVec Ideal S2048 .f32 := V0 (Proc.devRef .tc main_arg5)
abbrev aB1 : FVec Ideal S2048 .f32 := V0 (Proc.devRef .tc main_arg6)
abbrev aS2 : FVec Ideal S1024 .f32 := V0 (Proc.devRef .tc main_arg7)
abbrev aB2 : FVec Ideal S1024 .f32 := V0 (Proc.devRef .tc main_arg8)
abbrev aS3 : FVec Ideal S512 .f32 := V0 (Proc.devRef .tc main_arg9)
abbrev aB3 : FVec Ideal S512 .f32 := V0 (Proc.devRef .tc main_arg10)

/-- Row `p` of the input. -/
abbrev xrow (p : Fin 32768) : Fin 784 → EReal := fun k => aX V0 (ix2 p k)

abbrev sgW1 : FVec Ideal S1568x2048 .f32 := res_main_v8 V0
abbrev h1 : FVec Ideal S32768x2048 .f32 := res_main_v14 V0
abbrev mu1 : FVec Ideal S32768x1 .f32 := res_main_v18 V0
abbrev cen1 : FVec Ideal S32768x2048 .f32 := res_main_v20 V0
abbrev ln1 : FVec Ideal S32768x2048 .f32 := res_main_v38 V0
abbrev sgA1 : FVec Ideal S32768x2048 .f32 := res_main_v46 V0
abbrev sgW2 : FVec Ideal S2048x1024 .f32 := res_main_v57 V0
abbrev h2 : FVec Ideal S32768x1024 .f32 := res_main_v63 V0
abbrev mu2 : FVec Ideal S32768x1 .f32 := res_main_v67 V0
abbrev cen2 : FVec Ideal S32768x1024 .f32 := res_main_v69 V0
abbrev ln2 : FVec Ideal S32768x1024 .f32 := res_main_v87 V0
abbrev sgA2 : FVec Ideal S32768x1024 .f32 := res_main_v95 V0
abbrev sgW3 : FVec Ideal S1024x512 .f32 := res_main_v106 V0
abbrev h3 : FVec Ideal S32768x512 .f32 := res_main_v112 V0
abbrev mu3 : FVec Ideal S32768x1 .f32 := res_main_v116 V0
abbrev cen3 : FVec Ideal S32768x512 .f32 := res_main_v118 V0
abbrev ln3 : FVec Ideal S32768x512 .f32 := res_main_v136 V0
abbrev sgA3 : FVec Ideal S32768x512 .f32 := res_main_v144 V0
abbrev sgW4 : FVec Ideal S512x10 .f32 := res_main_v155 V0

/-! ## The four products' dimension numbers are the plain ones -/

theorem plain1 : IsPlain dot_S32768x1568_S1568x2048_S32768x2048_1_0_0_1_n_n := ⟨rfl, rfl, rfl, rfl, rfl, rfl⟩
theorem plain2 : IsPlain dot_S32768x2048_S2048x1024_S32768x1024_1_0_0_1_n_n := ⟨rfl, rfl, rfl, rfl, rfl, rfl⟩
theorem plain3 : IsPlain dot_S32768x1024_S1024x512_S32768x512_1_0_0_1_n_n := ⟨rfl, rfl, rfl, rfl, rfl, rfl⟩
theorem plain4 : IsPlain dot_S32768x512_S512x10_S32768x10_1_0_0_1_n_n := ⟨rfl, rfl, rfl, rfl, rfl, rfl⟩

/-! ## The stages' defining equations -/

theorem sgW1_eq : sgW1 V0 = Host.divf (broadcastInDim S1568x2048 ![] bcast_S_S1568x2048 (constant S_ .f32 0x3F800000#32)) (addf (broadcastInDim S1568x2048 ![] bcast_S_S1568x2048 (constant S_ .f32 0x3F800000#32)) (Host.exp (Host.negf (aW1 V0)))) := rfl
theorem h1_eq : h1 V0 = Host.dotGeneral dot_S32768x1568_S1568x2048_S32768x2048_1_0_0_1_n_n none (concatenate S32768x1568 1 [⟨S32768x784, aX V0⟩, ⟨S32768x784, subf (broadcastInDim S32768x784 ![] bcast_S_S32768x784 (constant S_ .f32 0x3F800000#32)) (aX V0)⟩] concatenates_S32768x784_S32768x784_S32768x1568_d1) (addf (sgW1 V0) (subf (uitofp .f32 (cmpf .ogt (aW1 V0) (broadcastInDim S1568x2048 ![] bcast_S_S1568x2048 (constant S_ .f32 0x00000000#32)))) (sgW1 V0))) := rfl
theorem mu1_eq : mu1 V0 = Host.divf (broadcastInDim S32768x1 ![0] bcast_S32768_S32768x1_0 (Host.reduceAdd (h1 V0) (constant S_ .f32 0x00000000#32) reducesTo_S32768x2048_S32768_d1 h_S_)) (broadcastInDim S32768x1 ![] bcast_S_S32768x1 (constant S_ .f32 0x45000000#32)) := rfl
theorem cen1_eq : cen1 V0 = subf (h1 V0) (broadcastInDim S32768x2048 ![0, 1] bcast_S32768x1_S32768x2048_0_1 (mu1 V0)) := rfl
theorem ln1_eq : ln1 V0 = addf (mulf (mulf (subf (h1 V0) (broadcastInDim S32768x2048 ![0, 1] bcast_S32768x1_S32768x2048_0_1 (mu1 V0))) (broadcastInDim S32768x2048 ![0, 1] bcast_S32768x1_S32768x2048_0_1 (Host.rsqrt (addf (Host.divf (broadcastInDim S32768x1 ![0] bcast_S32768_S32768x1_0 (Host.reduceAdd (mulf (cen1 V0) (cen1 V0)) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 (aS1 V0)))) (broadcastInDim S32768x2048 ![0, 1] bcast_S1x2048_S32768x2048_0_1 (broadcastInDim S1x2048 ![1] bcast_S2048_S1x2048_1 (aB1 V0))) := rfl
theorem sgA1_eq : sgA1 V0 = Host.divf (broadcastInDim S32768x2048 ![] bcast_S_S32768x2048 (constant S_ .f32 0x3F800000#32)) (addf (broadcastInDim S32768x2048 ![] bcast_S_S32768x2048 (constant S_ .f32 0x3F800000#32)) (Host.exp (Host.negf (mulf (broadcastInDim S32768x2048 ![] bcast_S_S32768x2048 (constant S_ .f32 0x40800000#32)) (ln1 V0))))) := rfl
theorem sgW2_eq : sgW2 V0 = Host.divf (broadcastInDim S2048x1024 ![] bcast_S_S2048x1024 (constant S_ .f32 0x3F800000#32)) (addf (broadcastInDim S2048x1024 ![] bcast_S_S2048x1024 (constant S_ .f32 0x3F800000#32)) (Host.exp (Host.negf (aW2 V0)))) := rfl
theorem h2_eq : h2 V0 = Host.dotGeneral dot_S32768x2048_S2048x1024_S32768x1024_1_0_0_1_n_n none (addf (sgA1 V0) (subf (uitofp .f32 (cmpf .ogt (ln1 V0) (broadcastInDim S32768x2048 ![] bcast_S_S32768x2048 (constant S_ .f32 0x00000000#32)))) (sgA1 V0))) (addf (sgW2 V0) (subf (uitofp .f32 (cmpf .ogt (aW2 V0) (broadcastInDim S2048x1024 ![] bcast_S_S2048x1024 (constant S_ .f32 0x00000000#32)))) (sgW2 V0))) := rfl
theorem mu2_eq : mu2 V0 = Host.divf (broadcastInDim S32768x1 ![0] bcast_S32768_S32768x1_0 (Host.reduceAdd (h2 V0) (constant S_ .f32 0x00000000#32) reducesTo_S32768x1024_S32768_d1 h_S_)) (broadcastInDim S32768x1 ![] bcast_S_S32768x1 (constant S_ .f32 0x44800000#32)) := rfl
theorem cen2_eq : cen2 V0 = subf (h2 V0) (broadcastInDim S32768x1024 ![0, 1] bcast_S32768x1_S32768x1024_0_1 (mu2 V0)) := rfl
theorem ln2_eq : ln2 V0 = addf (mulf (mulf (subf (h2 V0) (broadcastInDim S32768x1024 ![0, 1] bcast_S32768x1_S32768x1024_0_1 (mu2 V0))) (broadcastInDim S32768x1024 ![0, 1] bcast_S32768x1_S32768x1024_0_1 (Host.rsqrt (addf (Host.divf (broadcastInDim S32768x1 ![0] bcast_S32768_S32768x1_0 (Host.reduceAdd (mulf (cen2 V0) (cen2 V0)) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 (aS2 V0)))) (broadcastInDim S32768x1024 ![0, 1] bcast_S1x1024_S32768x1024_0_1 (broadcastInDim S1x1024 ![1] bcast_S1024_S1x1024_1 (aB2 V0))) := rfl
theorem sgA2_eq : sgA2 V0 = Host.divf (broadcastInDim S32768x1024 ![] bcast_S_S32768x1024 (constant S_ .f32 0x3F800000#32)) (addf (broadcastInDim S32768x1024 ![] bcast_S_S32768x1024 (constant S_ .f32 0x3F800000#32)) (Host.exp (Host.negf (mulf (broadcastInDim S32768x1024 ![] bcast_S_S32768x1024 (constant S_ .f32 0x40800000#32)) (ln2 V0))))) := rfl
theorem sgW3_eq : sgW3 V0 = Host.divf (broadcastInDim S1024x512 ![] bcast_S_S1024x512 (constant S_ .f32 0x3F800000#32)) (addf (broadcastInDim S1024x512 ![] bcast_S_S1024x512 (constant S_ .f32 0x3F800000#32)) (Host.exp (Host.negf (aW3 V0)))) := rfl
theorem h3_eq : h3 V0 = Host.dotGeneral dot_S32768x1024_S1024x512_S32768x512_1_0_0_1_n_n none (addf (sgA2 V0) (subf (uitofp .f32 (cmpf .ogt (ln2 V0) (broadcastInDim S32768x1024 ![] bcast_S_S32768x1024 (constant S_ .f32 0x00000000#32)))) (sgA2 V0))) (addf (sgW3 V0) (subf (uitofp .f32 (cmpf .ogt (aW3 V0) (broadcastInDim S1024x512 ![] bcast_S_S1024x512 (constant S_ .f32 0x00000000#32)))) (sgW3 V0))) := rfl
theorem mu3_eq : mu3 V0 = Host.divf (broadcastInDim S32768x1 ![0] bcast_S32768_S32768x1_0 (Host.reduceAdd (h3 V0) (constant S_ .f32 0x00000000#32) reducesTo_S32768x512_S32768_d1 h_S_)) (broadcastInDim S32768x1 ![] bcast_S_S32768x1 (constant S_ .f32 0x44000000#32)) := rfl
theorem cen3_eq : cen3 V0 = subf (h3 V0) (broadcastInDim S32768x512 ![0, 1] bcast_S32768x1_S32768x512_0_1 (mu3 V0)) := rfl
theorem ln3_eq : ln3 V0 = addf (mulf (mulf (subf (h3 V0) (broadcastInDim S32768x512 ![0, 1] bcast_S32768x1_S32768x512_0_1 (mu3 V0))) (broadcastInDim S32768x512 ![0, 1] bcast_S32768x1_S32768x512_0_1 (Host.rsqrt (addf (Host.divf (broadcastInDim S32768x1 ![0] bcast_S32768_S32768x1_0 (Host.reduceAdd (mulf (cen3 V0) (cen3 V0)) (constant S_ .f32 0x00000000#32) reducesTo_S32768x512_S32768_d1 h_S_)) (broadcastInDim S32768x1 ![] bcast_S_S32768x1 (constant S_ .f32 0x44000000#32))) (broadcastInDim S32768x1 ![] bcast_S_S32768x1 (constant S_ .f32 0x358637BD#32)))))) (broadcastInDim S32768x512 ![0, 1] bcast_S1x512_S32768x512_0_1 (broadcastInDim S1x512 ![1] bcast_S512_S1x512_1 (aS3 V0)))) (broadcastInDim S32768x512 ![0, 1] bcast_S1x512_S32768x512_0_1 (broadcastInDim S1x512 ![1] bcast_S512_S1x512_1 (aB3 V0))) := rfl
theorem sgA3_eq : sgA3 V0 = Host.divf (broadcastInDim S32768x512 ![] bcast_S_S32768x512 (constant S_ .f32 0x3F800000#32)) (addf (broadcastInDim S32768x512 ![] bcast_S_S32768x512 (constant S_ .f32 0x3F800000#32)) (Host.exp (Host.negf (mulf (broadcastInDim S32768x512 ![] bcast_S_S32768x512 (constant S_ .f32 0x40400000#32)) (ln3 V0))))) := rfl
theorem sgW4_eq : sgW4 V0 = Host.divf (broadcastInDim S512x10 ![] bcast_S_S512x10 (constant S_ .f32 0x3F800000#32)) (addf (broadcastInDim S512x10 ![] bcast_S_S512x10 (constant S_ .f32 0x3F800000#32)) (Host.exp (Host.negf (aW4 V0)))) := rfl

/-! ## Layer 1 -/

/-- The weight matrix of layer 1, thresholded the soft way, at `(k, j)`. -/
theorem w1_apply (k : Fin 1568) (j : Fin 2048) : (addf (sgW1 V0) (subf (uitofp .f32 (cmpf .ogt (aW1 V0) (broadcastInDim S1568x2048 ![] bcast_S_S1568x2048 (constant S_ .f32 0x00000000#32)))) (sgW1 V0))) (ix2 k j) = bin (aW1 V0) k j := by
  rw [sgW1_eq]
  exact softHard_apply bcast_S_S1568x2048 (aW1 V0) (aW1 V0) (ix2 k j)

/-- The first product at `(p, j)`: the row joined with its complement against the thresholded weights. -/
theorem h1_apply (p : Fin 32768) (j : Fin 2048) : h1 V0 (ix2 p j) = first (xrow V0 p) (aW1 V0) j := by
  rw [h1_eq]
  refine (dotGeneral_apply plain1 none .single _ _ p j).trans ?_
  have hw : ∀ k : Fin 1568, (addf (sgW1 V0) (subf (uitofp .f32 (cmpf .ogt (aW1 V0) (broadcastInDim S1568x2048 ![] bcast_S_S1568x2048 (constant S_ .f32 0x00000000#32)))) (sgW1 V0))) (ix2 k j) = step (aW1 V0 (ix2 k j)) := fun k => w1_apply V0 k j
  simp only [hw]
  refine first_of_joined (xrow V0 p) (aW1 V0) j _ (fun k => ?_) (fun k => ?_)
  · exact Cert.LibConcat2.cols_left _ _ _ p (lo k) k rfl
  · refine (Cert.LibConcat2.cols_right _ _ _ p (hi k) k (Nat.add_comm _ _)).trans ?_
    rw [subf_apply, splat_apply]
    rfl

/-- Its row mean. -/
theorem mu1_apply (p : Fin 32768) (u : Fin 1) : mu1 V0 (ix2 p u) = mean cnt1 (first (xrow V0 p) (aW1 V0)) := by
  rw [mu1_eq, mean_apply (h1 V0) 0x45000000#32 reducesTo_S32768x2048_S32768_d1 (by decide)]
  exact congrArg (mean cnt1) (funext fun k => h1_apply V0 p k)

/-- Its centred row. -/
theorem cen1_apply (p : Fin 32768) (k : Fin 2048) :
    cen1 V0 (ix2 p k) = (first (xrow V0 p) (aW1 V0)) k - mean cnt1 (first (xrow V0 p) (aW1 V0)) := by
  rw [cen1_eq, subf_apply, bcast_r1_rn_apply, mu1_apply, h1_apply]

/-- Its normalised row. -/
theorem ln1_apply (p : Fin 32768) (j : Fin 2048) : ln1 V0 (ix2 p j) = norm1 (xrow V0 p) (aW1 V0) (aS1 V0) (aB1 V0) j := by
  rw [ln1_eq]
  have hrow : (fun k => h1 V0 (ix2 p k)) = first (xrow V0 p) (aW1 V0) := funext fun k => h1_apply V0 p k
  refine (norm_apply (h1 V0) (cen1 V0) (mu1 V0) (aS1 V0) (aB1 V0) 0x45000000#32 0x358637BD#32
    (fun q u => ?_) (fun q k => ?_) reducesTo_S32768x2048_S32768_d1 (by decide) h_S_ bcast_S32768_S32768x1_0 bcast_S_S32768x1
    bcast_S32768x1_S32768x2048_0_1 bcast_S2048_S1x2048_1 bcast_S1x2048_S32768x2048_0_1 p j).trans ?_
  · rw [mu1_apply]; exact congrArg (mean cnt1) (funext fun k => (h1_apply V0 q k).symm)
  · rw [cen1_apply, h1_apply]
    exact congrArg (fun z => (first (xrow V0 q) (aW1 V0)) k - z) (congrArg (mean cnt1) (funext fun k => (h1_apply V0 q k).symm))
  · rw [hrow]; rfl

/-! ## Layer 2 -/

/-- The weight matrix of layer 2, thresholded the soft way, at `(k, j)`. -/
theorem w2_apply (k : Fin 2048) (j : Fin 1024) : (addf (sgW2 V0) (subf (uitofp .f32 (cmpf .ogt (aW2 V0) (broadcastInDim S2048x1024 ![] bcast_S_S2048x1024 (constant S_ .f32 0x00000000#32)))) (sgW2 V0))) (ix2 k j) = bin (aW2 V0) k j := by
  rw [sgW2_eq]
  exact softHard_apply bcast_S_S2048x1024 (aW2 V0) (aW2 V0) (ix2 k j)

/-- The activations entering layer 2, thresholded the soft way, at `(p, k)`. -/
theorem a1_apply (p : Fin 32768) (k : Fin 2048) : (addf (sgA1 V0) (subf (uitofp .f32 (cmpf .ogt (ln1 V0) (broadcastInDim S32768x2048 ![] bcast_S_S32768x2048 (constant S_ .f32 0x00000000#32)))) (sgA1 V0))) (ix2 p k) = act1 (xrow V0 p) (aW1 V0) (aS1 V0) (aB1 V0) k := by
  rw [sgA1_eq]
  refine (softHard_apply bcast_S_S32768x2048 (mulf (broadcastInDim S32768x2048 ![] bcast_S_S32768x2048 (constant S_ .f32 0x40800000#32)) (ln1 V0)) (ln1 V0) (ix2 p k)).trans ?_
  rw [ln1_apply]
  rfl

/-- The product of layer 2 at `(p, j)`. -/
theorem h2_apply (p : Fin 32768) (j : Fin 1024) : h2 V0 (ix2 p j) = dense (act1 (xrow V0 p) (aW1 V0) (aS1 V0) (aB1 V0)) (bin (aW2 V0)) j := by
  rw [h2_eq]
  refine (dotGeneral_apply plain2 none .single _ _ p j).trans ?_
  exact Finset.sum_congr rfl fun k _ => by rw [a1_apply, w2_apply]

/-- Its row mean. -/
theorem mu2_apply (p : Fin 32768) (u : Fin 1) : mu2 V0 (ix2 p u) = mean cnt2 (dense (act1 (xrow V0 p) (aW1 V0) (aS1 V0) (aB1 V0)) (bin (aW2 V0))) := by
  rw [mu2_eq, mean_apply (h2 V0) 0x44800000#32 reducesTo_S32768x1024_S32768_d1 (by decide)]
  exact congrArg (mean cnt2) (funext fun k => h2_apply V0 p k)

/-- Its centred row. -/
theorem cen2_apply (p : Fin 32768) (k : Fin 1024) :
    cen2 V0 (ix2 p k) = (dense (act1 (xrow V0 p) (aW1 V0) (aS1 V0) (aB1 V0)) (bin (aW2 V0))) k - mean cnt2 (dense (act1 (xrow V0 p) (aW1 V0) (aS1 V0) (aB1 V0)) (bin (aW2 V0))) := by
  rw [cen2_eq, subf_apply, bcast_r1_rn_apply, mu2_apply, h2_apply]

/-- Its normalised row. -/
theorem ln2_apply (p : Fin 32768) (j : Fin 1024) : ln2 V0 (ix2 p j) = norm2 (xrow V0 p) (aW1 V0) (aW2 V0) (aS1 V0) (aB1 V0) (aS2 V0) (aB2 V0) j := by
  rw [ln2_eq]
  have hrow : (fun k => h2 V0 (ix2 p k)) = dense (act1 (xrow V0 p) (aW1 V0) (aS1 V0) (aB1 V0)) (bin (aW2 V0)) := funext fun k => h2_apply V0 p k
  refine (norm_apply (h2 V0) (cen2 V0) (mu2 V0) (aS2 V0) (aB2 V0) 0x44800000#32 0x358637BD#32
    (fun q u => ?_) (fun q k => ?_) reducesTo_S32768x1024_S32768_d1 (by decide) h_S_ bcast_S32768_S32768x1_0 bcast_S_S32768x1
    bcast_S32768x1_S32768x1024_0_1 bcast_S1024_S1x1024_1 bcast_S1x1024_S32768x1024_0_1 p j).trans ?_
  · rw [mu2_apply]; exact congrArg (mean cnt2) (funext fun k => (h2_apply V0 q k).symm)
  · rw [cen2_apply, h2_apply]
    exact congrArg (fun z => (dense (act1 (xrow V0 q) (aW1 V0) (aS1 V0) (aB1 V0)) (bin (aW2 V0))) k - z) (congrArg (mean cnt2) (funext fun k => (h2_apply V0 q k).symm))
  · rw [hrow]; rfl

/-! ## Layer 3 -/

/-- The weight matrix of layer 3, thresholded the soft way, at `(k, j)`. -/
theorem w3_apply (k : Fin 1024) (j : Fin 512) : (addf (sgW3 V0) (subf (uitofp .f32 (cmpf .ogt (aW3 V0) (broadcastInDim S1024x512 ![] bcast_S_S1024x512 (constant S_ .f32 0x00000000#32)))) (sgW3 V0))) (ix2 k j) = bin (aW3 V0) k j := by
  rw [sgW3_eq]
  exact softHard_apply bcast_S_S1024x512 (aW3 V0) (aW3 V0) (ix2 k j)

/-- The activations entering layer 3, thresholded the soft way, at `(p, k)`. -/
theorem a2_apply (p : Fin 32768) (k : Fin 1024) : (addf (sgA2 V0) (subf (uitofp .f32 (cmpf .ogt (ln2 V0) (broadcastInDim S32768x1024 ![] bcast_S_S32768x1024 (constant S_ .f32 0x00000000#32)))) (sgA2 V0))) (ix2 p k) = act2 (xrow V0 p) (aW1 V0) (aW2 V0) (aS1 V0) (aB1 V0) (aS2 V0) (aB2 V0) k := by
  rw [sgA2_eq]
  refine (softHard_apply bcast_S_S32768x1024 (mulf (broadcastInDim S32768x1024 ![] bcast_S_S32768x1024 (constant S_ .f32 0x40800000#32)) (ln2 V0)) (ln2 V0) (ix2 p k)).trans ?_
  rw [ln2_apply]
  rfl

/-- The product of layer 3 at `(p, j)`. -/
theorem h3_apply (p : Fin 32768) (j : Fin 512) : h3 V0 (ix2 p j) = dense (act2 (xrow V0 p) (aW1 V0) (aW2 V0) (aS1 V0) (aB1 V0) (aS2 V0) (aB2 V0)) (bin (aW3 V0)) j := by
  rw [h3_eq]
  refine (dotGeneral_apply plain3 none .single _ _ p j).trans ?_
  exact Finset.sum_congr rfl fun k _ => by rw [a2_apply, w3_apply]

/-- Its row mean. -/
theorem mu3_apply (p : Fin 32768) (u : Fin 1) : mu3 V0 (ix2 p u) = mean cnt3 (dense (act2 (xrow V0 p) (aW1 V0) (aW2 V0) (aS1 V0) (aB1 V0) (aS2 V0) (aB2 V0)) (bin (aW3 V0))) := by
  rw [mu3_eq, mean_apply (h3 V0) 0x44000000#32 reducesTo_S32768x512_S32768_d1 (by decide)]
  exact congrArg (mean cnt3) (funext fun k => h3_apply V0 p k)

/-- Its centred row. -/
theorem cen3_apply (p : Fin 32768) (k : Fin 512) :
    cen3 V0 (ix2 p k) = (dense (act2 (xrow V0 p) (aW1 V0) (aW2 V0) (aS1 V0) (aB1 V0) (aS2 V0) (aB2 V0)) (bin (aW3 V0))) k - mean cnt3 (dense (act2 (xrow V0 p) (aW1 V0) (aW2 V0) (aS1 V0) (aB1 V0) (aS2 V0) (aB2 V0)) (bin (aW3 V0))) := by
  rw [cen3_eq, subf_apply, bcast_r1_rn_apply, mu3_apply, h3_apply]

/-- Its normalised row. -/
theorem ln3_apply (p : Fin 32768) (j : Fin 512) : ln3 V0 (ix2 p j) = norm3 (xrow V0 p) (aW1 V0) (aW2 V0) (aW3 V0) (aS1 V0) (aB1 V0) (aS2 V0) (aB2 V0) (aS3 V0) (aB3 V0) j := by
  rw [ln3_eq]
  have hrow : (fun k => h3 V0 (ix2 p k)) = dense (act2 (xrow V0 p) (aW1 V0) (aW2 V0) (aS1 V0) (aB1 V0) (aS2 V0) (aB2 V0)) (bin (aW3 V0)) := funext fun k => h3_apply V0 p k
  refine (norm_apply (h3 V0) (cen3 V0) (mu3 V0) (aS3 V0) (aB3 V0) 0x44000000#32 0x358637BD#32
    (fun q u => ?_) (fun q k => ?_) reducesTo_S32768x512_S32768_d1 (by decide) h_S_ bcast_S32768_S32768x1_0 bcast_S_S32768x1
    bcast_S32768x1_S32768x512_0_1 bcast_S512_S1x512_1 bcast_S1x512_S32768x512_0_1 p j).trans ?_
  · rw [mu3_apply]; exact congrArg (mean cnt3) (funext fun k => (h3_apply V0 q k).symm)
  · rw [cen3_apply, h3_apply]
    exact congrArg (fun z => (dense (act2 (xrow V0 q) (aW1 V0) (aW2 V0) (aS1 V0) (aB1 V0) (aS2 V0) (aB2 V0)) (bin (aW3 V0))) k - z) (congrArg (mean cnt3) (funext fun k => (h3_apply V0 q k).symm))
  · rw [hrow]; rfl

/-! ## The output -/

/-- The last weight matrix, thresholded the soft way. -/
theorem w4_apply (k : Fin 512) (j : Fin 10) : (addf (sgW4 V0) (subf (uitofp .f32 (cmpf .ogt (aW4 V0) (broadcastInDim S512x10 ![] bcast_S_S512x10 (constant S_ .f32 0x00000000#32)))) (sgW4 V0))) (ix2 k j) = bin (aW4 V0) k j := by
  rw [sgW4_eq]
  exact softHard_apply bcast_S_S512x10 (aW4 V0) (aW4 V0) (ix2 k j)

/-- The third activations, thresholded the soft way. -/
theorem a3_apply (p : Fin 32768) (k : Fin 512) : (addf (sgA3 V0) (subf (uitofp .f32 (cmpf .ogt (ln3 V0) (broadcastInDim S32768x512 ![] bcast_S_S32768x512 (constant S_ .f32 0x00000000#32)))) (sgA3 V0))) (ix2 p k) = act3 (xrow V0 p) (aW1 V0) (aW2 V0) (aW3 V0) (aS1 V0) (aB1 V0) (aS2 V0) (aB2 V0) (aS3 V0) (aB3 V0) k := by
  rw [sgA3_eq]
  refine (softHard_apply bcast_S_S32768x512 (mulf (broadcastInDim S32768x512 ![] bcast_S_S32768x512 (constant S_ .f32 0x40400000#32)) (ln3 V0)) (ln3 V0) (ix2 p k)).trans ?_
  rw [ln3_apply]
  rfl

/-- The reference's result array is `G` of its arguments. -/
theorem result_eq :
    Host.dotGeneral dot_S32768x512_S512x10_S32768x10_1_0_0_1_n_n none (addf (sgA3 V0) (subf (uitofp .f32 (cmpf .ogt (ln3 V0) (broadcastInDim S32768x512 ![] bcast_S_S32768x512 (constant S_ .f32 0x00000000#32)))) (sgA3 V0))) (addf (sgW4 V0) (subf (uitofp .f32 (cmpf .ogt (aW4 V0) (broadcastInDim S512x10 ![] bcast_S_S512x10 (constant S_ .f32 0x00000000#32)))) (sgW4 V0)))
      = G (aX V0) (aW1 V0) (aW2 V0) (aW3 V0) (aW4 V0) (aS1 V0) (aB1 V0) (aS2 V0) (aB2 V0) (aS3 V0) (aB3 V0) := by
  funext i
  obtain ⟨p, n, rfl⟩ : ∃ (p : Fin 32768) (n : Fin 10), i = ix2 p n := ⟨i 0, i 1, eq_ix2 i⟩
  refine (dotGeneral_apply plain4 none .single _ _ p n).trans ?_
  show _ = dense (act3 (xrow V0 p) (aW1 V0) (aW2 V0) (aW3 V0) (aS1 V0) (aB1 V0) (aS2 V0) (aB2 V0) (aS3 V0) (aB3 V0)) (bin (aW4 V0)) n
  exact Finset.sum_congr rfl fun k _ => by rw [a3_apply, w4_apply]

end Cert.ReferenceIdeal.RefValue

end
-- ==== Proof.lean ====
/-
  The certificate: the kernel is the reference over the extended reals.

  Both programs compute, row by row, one function of an input row and the weights: four dense layers with weights
  thresholded to 0 / 1, a row normalisation and the same threshold between them. The kernel's result array is that
  function `G` of its arguments (the body's value on a block, then the blocks laid over the array), and so is the
  reference's (each of its whole-array stages read at an entry). The reference writes every threshold as a logistic
  value plus the difference between the hard value and it; a logistic value is a real number at every extended real,
  so that sum is the hard value. The first layer acts on the row joined with its complement, which the kernel splits
  into two products over the two halves of the weight rows: a sum taken in two parts. Neither fact needs the inputs to
  be finite, so the precondition is never opened. The three frames are the generated ones (the reference's is its
  generated run with the result dropped), and no operation was rewritten on the way to the idealized kernel.
-/
import proofs.«172270_j10136122818966_1_alg».proof.Defs
import proofs.«172270_j10136122818966_1_alg».proof.Proof.Gen.Kernel
import proofs.«172270_j10136122818966_1_alg».proof.Proof.Gen.Kernel.Skeleton
import proofs.«172270_j10136122818966_1_alg».proof.Proof.Gen.Kernel.Launch
import proofs.«172270_j10136122818966_1_alg».proof.Proof.Gen.Kernel.Points
import proofs.«172270_j10136122818966_1_alg».proof.Proof.Gen.Kernel.Frame
import proofs.«172270_j10136122818966_1_alg».proof.Proof.Gen.KernelIdeal
import proofs.«172270_j10136122818966_1_alg».proof.Proof.Gen.KernelIdeal.Skeleton
import proofs.«172270_j10136122818966_1_alg».proof.Proof.Gen.KernelIdeal.Launch
import proofs.«172270_j10136122818966_1_alg».proof.Proof.Gen.KernelIdeal.Points
import proofs.«172270_j10136122818966_1_alg».proof.Proof.Gen.KernelIdeal.Frame
import proofs.«172270_j10136122818966_1_alg».proof.Proof.Gen.ReferenceIdeal
import proofs.«172270_j10136122818966_1_alg».proof.Proof.Gen.Pre_finite_inputs
import proofs.«172270_j10136122818966_1_alg».proof.Proof.Gen.KernelIdeal.Value
import proofs.«172270_j10136122818966_1_alg».proof.Proof.Gen.ReferenceIdeal.Run
import proofs.«172270_j10136122818966_1_alg».proof.Proof.KernelWhole
import proofs.«172270_j10136122818966_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at `G` of arguments that agree. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.RefValue.result_eq (StableHlo.launchContents m' c)).trans ?_
  obtain ⟨h0, h1, h2, h3, h4, h5, h6, h7, h8, h9, h10⟩ := hagree c
  have e0 : Cert.ReferenceIdeal.RefValue.aX (StableHlo.launchContents m' c) = Cert.KernelIdeal.Entry.aX m c := h0
  have e1 : Cert.ReferenceIdeal.RefValue.aW1 (StableHlo.launchContents m' c) = Cert.KernelIdeal.Entry.aW1 m c := h1
  have e2 : Cert.ReferenceIdeal.RefValue.aW2 (StableHlo.launchContents m' c) = Cert.KernelIdeal.Entry.aW2 m c := h2
  have e3 : Cert.ReferenceIdeal.RefValue.aW3 (StableHlo.launchContents m' c) = Cert.KernelIdeal.Entry.aW3 m c := h3
  have e4 : Cert.ReferenceIdeal.RefValue.aW4 (StableHlo.launchContents m' c) = Cert.KernelIdeal.Entry.aW4 m c := h4
  have e5 : Cert.ReferenceIdeal.RefValue.aS1 (StableHlo.launchContents m' c) = Cert.KernelIdeal.Entry.aS1 m c := h5
  have e6 : Cert.ReferenceIdeal.RefValue.aB1 (StableHlo.launchContents m' c) = Cert.KernelIdeal.Entry.aB1 m c := h6
  have e7 : Cert.ReferenceIdeal.RefValue.aS2 (StableHlo.launchContents m' c) = Cert.KernelIdeal.Entry.aS2 m c := h7
  have e8 : Cert.ReferenceIdeal.RefValue.aB2 (StableHlo.launchContents m' c) = Cert.KernelIdeal.Entry.aB2 m c := h8
  have e9 : Cert.ReferenceIdeal.RefValue.aS3 (StableHlo.launchContents m' c) = Cert.KernelIdeal.Entry.aS3 m c := h9
  have e10 : Cert.ReferenceIdeal.RefValue.aB3 (StableHlo.launchContents m' c) = Cert.KernelIdeal.Entry.aB3 m c := h10
  rw [e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
